-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "eps_sq" .f32 0x24E69595#32 ((126765058482001 / 1267650600228229401496703205376 : ℝ) : EReal)
  ∧ IdealRules.named_const.Statement Cert.KernelIdeal.κ "eps_sq" .f32 0x24E69595#32 ((126765058482001 / 1267650600228229401496703205376 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x256 : Shape := ⟨3, ![1024, 64, 256]⟩
abbrev S1024 : Shape := ⟨1, ![1024]⟩
abbrev S1024x64 : Shape := ⟨2, ![1024, 64]⟩
abbrev S_ : Shape := ⟨0, ![]⟩

class Facts : Prop where
  bcast_S_S1024x64x256 : S_.BroadcastsInDim S1024x64x256 (![] : Fin 0 → Fin S1024x64x256.rank)
  reducesTo_S1024x64x256_S_d0_1_2 : S1024x64x256.ReducesTo [0, 1, 2] S_
  h_S_ : 0 < S_.numel

variable [Facts]

def fn {F : FTy → Type} [FloatOps F] (main_arg0 : FVec F S1024x64x256 .f32) (main_arg1 : FVec F S1024x64x256 .f32) (main_arg2 : IVec S1024 32) (main_arg3 : IVec S1024x64 1) : IVec S_ 1 :=
  let main_v0 : FVec F S1024x64x256 .f32 := Host.absf main_arg0
  let main_cst : FVec F S_ .f32 := constant S_ .f32 0x7F800000#32
  let main_v1 : FVec F S1024x64x256 .f32 := broadcastInDim S1024x64x256 ![] bcast_S_S1024x64x256 main_cst
  let main_v2 : IVec S1024x64x256 1 := cmpf .olt main_v0 main_v1
  let main_c : IVec S_ 1 := constantI S_ 1 1#1
  let main_v3 : IVec S_ 1 := (fun x v => Host.reduce IntOp.andi x v reducesTo_S1024x64x256_S_d0_1_2 h_S_) main_v2 main_c
  let main_v4 : FVec F S1024x64x256 .f32 := Host.absf main_arg1
  let main_cst_0 : FVec F S_ .f32 := constant S_ .f32 0x7F800000#32
  let main_v5 : FVec F S1024x64x256 .f32 := broadcastInDim S1024x64x256 ![] bcast_S_S1024x64x256 main_cst_0
  let main_v6 : IVec S1024x64x256 1 := cmpf .olt main_v4 main_v5
  let main_c_1 : IVec S_ 1 := constantI S_ 1 1#1
  let main_v7 : IVec S_ 1 := (fun x v => Host.reduce IntOp.andi x v reducesTo_S1024x64x256_S_d0_1_2 h_S_) main_v6 main_c_1
  let main_v8 : IVec S_ 1 := andi main_v3 main_v7
  main_v8
-- ==== Kernel.lean ====
abbrev S1024x64x256 : Shape := ⟨3, ![1024, 64, 256]⟩
abbrev S1024 : Shape := ⟨1, ![1024]⟩
abbrev S1024x64 : Shape := ⟨2, ![1024, 64]⟩
abbrev S_ : Shape := ⟨0, ![]⟩
abbrev S1024x1 : Shape := ⟨2, ![1024, 1]⟩
abbrev S16x8x128 : Shape := ⟨3, ![16, 8, 128]⟩
abbrev S64x64x256 : Shape := ⟨3, ![64, 64, 256]⟩
abbrev S64x1 : Shape := ⟨2, ![64, 1]⟩
abbrev S64x64 : Shape := ⟨2, ![64, 64]⟩
abbrev S1x8x128 : Shape := ⟨3, ![1, 8, 128]⟩
abbrev S64 : Shape := ⟨1, ![64]⟩
abbrev S1 : Shape := ⟨1, ![1]⟩
abbrev S1x1 : Shape := ⟨2, ![1, 1]⟩
abbrev S8x128 : Shape := ⟨2, ![8, 128]⟩

abbrev nBuf : Space → Nat
  | .hbm => 40
  | .vmem => 16
  | .smem => 0
  | _ => 0

abbrev bufTy : (tb : Table) → Fin (tcTables nBuf tb) → BufTy
  | .hbm, ⟨0, _⟩ => ⟨S1024x64x256, .f32⟩
  | .hbm, ⟨1, _⟩ => ⟨S1024x64x256, .f32⟩
  | .hbm, ⟨2, _⟩ => ⟨S1024, .i32⟩
  | .hbm, ⟨3, _⟩ => ⟨S1024x64, .i1⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S1024, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S1024, .f32⟩
  | .hbm, ⟨21, _⟩ => ⟨S1024x1, .f32⟩
  | .hbm, ⟨22, _⟩ => ⟨S1024x64, .f32⟩
  | .hbm, ⟨23, _⟩ => ⟨S16x8x128, .f32⟩
  | .hbm, ⟨24, _⟩ => ⟨S16x8x128, .f32⟩
  | .hbm, ⟨25, _⟩ => ⟨S16x8x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S64x64x256, .f32⟩
  | .local _ .vmem, ⟨1, _⟩ => ⟨S64x64x256, .f32⟩
  | .local _ .vmem, ⟨2, _⟩ => ⟨S64x64x256, .f32⟩
  | .local _ .vmem, ⟨3, _⟩ => ⟨S64x64x256, .f32⟩
  | .local _ .vmem, ⟨4, _⟩ => ⟨S64x1, .i32⟩
  | .local _ .vmem, ⟨5, _⟩ => ⟨S64x1, .i32⟩
  | .local _ .vmem, ⟨6, _⟩ => ⟨S64x1, .f32⟩
  | .local _ .vmem, ⟨7, _⟩ => ⟨S64x1, .f32⟩
  | .local _ .vmem, ⟨8, _⟩ => ⟨S64x64, .f32⟩
  | .local _ .vmem, ⟨9, _⟩ => ⟨S64x64, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | _, _ => ⟨S1024x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_cst : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_cst_7 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1024 : S_.BroadcastsInDim S1024 (![] : Fin 0 → Fin S1024.rank)
  shapeCasts_S1024_S1024x1 : S1024.ShapeCasts S1024x1
  inb_S64x64x256_S64x64x256_0_0_0 : ∀ a, (![0, 0, 0] : Fin 3 → Nat) a + S64x64x256.size a ≤ S64x64x256.size a
  h_S64x64x256 : 0 < S64x64x256.numel
  reduces_S64x64x256_S64x64 : S64x64x256.Reduces [2] S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x64_d1_w32 : S64x64.Iotas .tc 32 [1]
  broadcasts_S64x1_S64x64 : S64x1.Broadcasts S64x64
  natLt_1_32 : 1 < 32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S64x64_S64 : S64x64.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S16x8x128_S_d0_1_2 : S16x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x256.size a ≤ S1024x64x256.size a
  hwx0_0 : ∀ i : grid0.Coords, EltTy.bits .f32 = 32 ∨ (Rect.block (s := S1024x64x256) S64x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x256.size a ≤ S1024x64x256.size a
  hwx0_1 : ∀ i : grid0.Coords, EltTy.bits .f32 = 32 ∨ (Rect.block (s := S1024x64x256) S64x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S1024x1.size a
  hwx0_2 : ∀ i : grid0.Coords, EltTy.bits .i32 = 32 ∨ (Rect.block (s := S1024x1) S64x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S1024x1.size a
  hwx0_3 : ∀ i : grid0.Coords, EltTy.bits .f32 = 32 ∨ (Rect.block (s := S1024x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S1024x64.size a
  hwx0_4 : ∀ i : grid0.Coords, EltTy.bits .f32 = 32 ∨ (Rect.block (s := S1024x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S16x8x128.size a
  hwx0_5 : ∀ i : grid0.Coords, EltTy.bits .f32 = 32 ∨ (Rect.block (s := S16x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S16x8x128.size a
  hwx0_6 : ∀ i : grid0.Coords, EltTy.bits .f32 = 32 ∨ (Rect.block (s := S16x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S16x8x128.size a
  hwx0_7 : ∀ i : grid0.Coords, EltTy.bits .f32 = 32 ∨ (Rect.block (s := S16x8x128) S1x8x128.size (cc0_transform_7 i) (hinb0_7 i)).WholeWords (EltTy.packing .f32)

variable [Facts₀]

abbrev win0_0 : Pipeline.Window sig grid0 :=
  Pipeline.Window.ofSpec (Memref.whole main_arg0) S64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_2) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x64x256 : Shape := ⟨3, ![1024, 64, 256]⟩
abbrev S1024 : Shape := ⟨1, ![1024]⟩
abbrev S1024x64 : Shape := ⟨2, ![1024, 64]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S64 : Shape := ⟨1, ![64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S1024x64x256, .f32⟩
  | .hbm, ⟨1, _⟩ => ⟨S1024x64x256, .f32⟩
  | .hbm, ⟨2, _⟩ => ⟨S1024, .i32⟩
  | .hbm, ⟨3, _⟩ => ⟨S1024x64, .i1⟩
  | .hbm, ⟨4, _⟩ => ⟨S1024x64x256, .f32⟩
  | .hbm, ⟨5, _⟩ => ⟨S_, .f32⟩
  | .hbm, ⟨6, _⟩ => ⟨S1024x64, .f32⟩
  | .hbm, ⟨7, _⟩ => ⟨S1024x64x256, .f32⟩
  | .hbm, ⟨8, _⟩ => ⟨S_, .f32⟩
  | .hbm, ⟨9, _⟩ => ⟨S1024x64, .f32⟩
  | .hbm, ⟨10, _⟩ => ⟨S1024x64, .f32⟩
  | .hbm, ⟨11, _⟩ => ⟨S1024x64x256, .f32⟩
  | .hbm, ⟨12, _⟩ => ⟨S_, .f32⟩
  | .hbm, ⟨13, _⟩ => ⟨S1024x64, .f32⟩
  | .hbm, ⟨14, _⟩ => ⟨S1024x64, .f32⟩
  | .hbm, ⟨15, _⟩ => ⟨S_, .f32⟩
  | .hbm, ⟨16, _⟩ => ⟨S1024x64, .f32⟩
  | .hbm, ⟨17, _⟩ => ⟨S1024x64, .f32⟩
  | .hbm, ⟨18, _⟩ => ⟨S_, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S1024, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S_, .i32⟩
  | .hbm, ⟨40, _⟩ => ⟨S1024x1, .i32⟩
  | .hbm, ⟨41, _⟩ => ⟨S1024x1, .i1⟩
  | .hbm, ⟨42, _⟩ => ⟨S_, .i32⟩
  | .hbm, ⟨43, _⟩ => ⟨S1024x1, .i32⟩
  | .hbm, ⟨44, _⟩ => ⟨S1024x1, .i32⟩
  | .hbm, ⟨45, _⟩ => ⟨S1024x1, .i32⟩
  | .hbm, ⟨46, _⟩ => ⟨S1024x1x1, .i32⟩
  | .hbm, ⟨47, _⟩ => ⟨S1, .i32⟩
  | .hbm, ⟨48, _⟩ => ⟨S_, .i32⟩
  | .hbm, ⟨49, _⟩ => ⟨S1024x1x1, .i32⟩
  | .hbm, ⟨50, _⟩ => ⟨S1024x1x1, .i1⟩
  | .hbm, ⟨51, _⟩ => ⟨S1x1x1, .i32⟩
  | .hbm, ⟨52, _⟩ => ⟨S1024x1x1, .i32⟩
  | .hbm, ⟨53, _⟩ => ⟨S1024x1x1, .i1⟩
  | .hbm, ⟨54, _⟩ => ⟨S1024x1x1, .i1⟩
  | .hbm, ⟨55, _⟩ => ⟨S_, .i1⟩
  | .hbm, ⟨56, _⟩ => ⟨S1024x1, .i1⟩
  | .hbm, ⟨57, _⟩ => ⟨S1024x1, .f32⟩
  | .hbm, ⟨58, _⟩ => ⟨S_, .f32⟩
  | .hbm, ⟨59, _⟩ => ⟨S1024x1, .f32⟩
  | .hbm, ⟨60, _⟩ => ⟨S1024x1, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S64, .i32⟩
  | .hbm, ⟨69, _⟩ => ⟨S1x64, .i32⟩
  | .hbm, ⟨70, _⟩ => ⟨S1024x1, .i32⟩
  | .hbm, ⟨71, _⟩ => ⟨S1024x64, .i32⟩
  | .hbm, ⟨72, _⟩ => ⟨S1024x64, .i32⟩
  | .hbm, ⟨73, _⟩ => ⟨S1024x64, .i1⟩
  | .hbm, ⟨74, _⟩ => ⟨S1024x64, .i1⟩
  | .hbm, ⟨75, _⟩ => ⟨S1024x64, .i32⟩
  | .hbm, ⟨76, _⟩ => ⟨S_, .i32⟩
  | .hbm, ⟨77, _⟩ => ⟨S1024, .i32⟩
  | .hbm, ⟨78, _⟩ => ⟨S_, .f32⟩
  | .hbm, ⟨79, _⟩ => ⟨S1024x64, .f32⟩
  | .hbm, ⟨80, _⟩ => ⟨S1024x64, .f32⟩
  | .hbm, ⟨81, _⟩ => ⟨S_, .f32⟩
  | .hbm, ⟨82, _⟩ => ⟨S_, .f32⟩
  | .hbm, ⟨83, _⟩ => ⟨S1024x64, .f32⟩
  | .hbm, ⟨84, _⟩ => ⟨S1024x64, .f32⟩
  | .hbm, ⟨85, _⟩ => ⟨S_, .f32⟩
  | .hbm, ⟨86, _⟩ => ⟨S1024, .f32⟩
  | .hbm, ⟨87, _⟩ => ⟨S_, .i32⟩
  | .hbm, ⟨88, _⟩ => ⟨S1024, .i32⟩
  | .hbm, ⟨89, _⟩ => ⟨S1024, .i1⟩
  | .hbm, ⟨90, _⟩ => ⟨S_, .i32⟩
  | .hbm, ⟨91, _⟩ => ⟨S1024, .i32⟩
  | .hbm, ⟨92, _⟩ => ⟨S1024, .i32⟩
  | .hbm, ⟨93, _⟩ => ⟨S1024, .f32⟩
  | .hbm, ⟨94, _⟩ => ⟨S1024, .f32⟩
  | .hbm, ⟨95, _⟩ => ⟨S_, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S_, .f32⟩
  | .hbm, ⟨103, _⟩ => ⟨S1024, .f32⟩
  | .hbm, ⟨104, _⟩ => ⟨S1024, .f32⟩
  | .hbm, ⟨105, _⟩ => ⟨S1024, .f32⟩
  | .hbm, ⟨106, _⟩ => ⟨S_, .f32⟩
  | .hbm, ⟨107, _⟩ => ⟨S_, .f32⟩
  | .hbm, ⟨108, _⟩ => ⟨S1024, .f32⟩
  | .hbm, ⟨109, _⟩ => ⟨S1024, .f32⟩
  | .hbm, ⟨110, _⟩ => ⟨S_, .f32⟩
  | .hbm, ⟨111, _⟩ => ⟨S_, .f32⟩
  | .hbm, ⟨112, _⟩ => ⟨S1024, .i32⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S_, .i1⟩
  | .hbm, ⟨117, _⟩ => ⟨S_, .i32⟩
  | .hbm, ⟨118, _⟩ => ⟨S_, .i32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S1024x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_c_6 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v19 : Ref sig .tc := ⟨.hbm, 37, rfl⟩
abbrev main_v20 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v21 : Ref sig .tc := ⟨.hbm, 60, rfl⟩
abbrev main_v22 : Ref sig .tc := ⟨.hbm, 61, rfl⟩
abbrev main_cst_7 : Ref sig .tc := ⟨.hbm, 62, rfl⟩
abbrev main_v23 : Ref sig .tc := ⟨.hbm, 63, rfl⟩
abbrev main_v24 : Ref sig .tc := ⟨.hbm, 64, rfl⟩
abbrev main_call2_cst : Ref sig .tc := ⟨.hbm, 65, rfl⟩
abbrev main_call2_v0 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_c_8 : Ref sig .tc := ⟨.hbm, 76, rfl⟩
abbrev main_v34 : Ref sig .tc := ⟨.hbm, 77, rfl⟩
abbrev main_cst_9 : Ref sig .tc := ⟨.hbm, 78, rfl⟩
abbrev main_v35 : Ref sig .tc := ⟨.hbm, 79, rfl⟩
abbrev main_v36 : Ref sig .tc := ⟨.hbm, 80, rfl⟩
abbrev main_cst_10 : Ref sig .tc := ⟨.hbm, 81, rfl⟩
abbrev main_call3_v0 : Ref sig .tc := ⟨.hbm, 82, rfl⟩
abbrev main_call3_v1 : Ref sig .tc := ⟨.hbm, 83, rfl⟩
abbrev main_v37 : Ref sig .tc := ⟨.hbm, 84, rfl⟩
abbrev main_cst_11 : Ref sig .tc := ⟨.hbm, 85, rfl⟩
abbrev main_v38 : Ref sig .tc := ⟨.hbm, 86, rfl⟩
abbrev main_c_12 : Ref sig .tc := ⟨.hbm, 87, rfl⟩
abbrev main_v39 : Ref sig .tc := ⟨.hbm, 88, rfl⟩
abbrev main_v40 : Ref sig .tc := ⟨.hbm, 89, rfl⟩
abbrev main_c_13 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_14 : Ref sig .tc := ⟨.hbm, 95, rfl⟩
abbrev main_call4_v0 : Ref sig .tc := ⟨.hbm, 96, rfl⟩
abbrev main_call4_v1 : Ref sig .tc := ⟨.hbm, 97, rfl⟩
abbrev main_v45 : Ref sig .tc := ⟨.hbm, 98, rfl⟩
abbrev main_cst_15 : Ref sig .tc := ⟨.hbm, 99, rfl⟩
abbrev main_v46 : Ref sig .tc := ⟨.hbm, 100, rfl⟩
abbrev main_v47 : Ref sig .tc := ⟨.hbm, 101, rfl⟩
abbrev main_cst_16 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_17 : Ref sig .tc := ⟨.hbm, 106, rfl⟩
abbrev main_call5_v0 : Ref sig .tc := ⟨.hbm, 107, rfl⟩
abbrev main_call5_v1 : Ref sig .tc := ⟨.hbm, 108, rfl⟩
abbrev main_v51 : Ref sig .tc := ⟨.hbm, 109, rfl⟩
abbrev main_cst_18 : Ref sig .tc := ⟨.hbm, 110, rfl⟩
abbrev main_v52 : Ref sig .tc := ⟨.hbm, 111, rfl⟩
abbrev main_v53 : Ref sig .tc := ⟨.hbm, 112, rfl⟩
abbrev main_c_19 : Ref sig .tc := ⟨.hbm, 113, rfl⟩
abbrev main_v54 : Ref sig .tc := ⟨.hbm, 114, rfl⟩
abbrev main_c_20 : Ref sig .tc := ⟨.hbm, 115, rfl⟩
abbrev main_v55 : Ref sig .tc := ⟨.hbm, 116, rfl⟩
abbrev main_c_21 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_22 : Ref sig .tc := ⟨.hbm, 121, rfl⟩
abbrev main_v59 : Ref sig .tc := ⟨.hbm, 122, rfl⟩
abbrev main_cst_23 : Ref sig .tc := ⟨.hbm, 123, rfl⟩
abbrev main_v60 : Ref sig .tc := ⟨.hbm, 124, rfl⟩
abbrev main_v61 : Ref sig .tc := ⟨.hbm, 125, rfl⟩

abbrev nD : Nat := 1
abbrev τ : Topo := Topo.v7x

variable {F : FTy → Type} [FloatOps F]

class Facts₀ : Prop where
  reducesTo_S1024x64x256_S1024x64_d2 : S1024x64x256.ReducesTo [2] S1024x64
  h_S_ : 0 < S_.numel
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S1024x1_S1024x64_0_1 : S1024x1.BroadcastsInDim S1024x64 (![0, 1] : Fin 2 → Fin S1024x64.rank)
  natLt_1_32 : 1 < 32
  reducesTo_S1024x64_S1024_d1 : S1024x64.ReducesTo [1] S1024
  reducesTo_S1024_S_d0 : S1024.ReducesTo [0] S_
  reducesTo_S1024x64x256_S_d0_1_2 : S1024x64x256.ReducesTo [0, 1, 2] S_
  gather_S1024x64_S1024x1x1_S1024x1_n_1_0_0_1_2_11_wf : GatherDims.WF S1024x64 S1024x1x1 S1024x1 [] [1] [0] [1] [0] 2 ![1, 1]

variable [Facts₀]

def gather_S1024x64_S1024x1x1_S1024x1_n_1_0_0_1_2_11 : GatherDims S1024x64 S1024x1x1 S1024x1 where
  offsetDims := []
  collapsedSliceDims := [1]
  operandBatchingDims := [0]
  startIndicesBatchingDims := [0]
  startIndexMap := [1]
  indexVectorDim := 2
  sliceSizes := ![1, 1]
  wf := gather_S1024x64_S1024x1x1_S1024x1_n_1_0_0_1_2_11_wf

class Facts : Prop extends Facts₀ where

variable [Facts]
-- ==== Proof.LibBatch.lean ====
/-
  Reading rank-three arrays with a leading batch axis at an index, on the extended reals, for any extents.

  Layout: an [a, b] array cast to [a, b, 1] or to [a, 1, b]; an [a, b, 1] or [a, 1, c] array broadcast to
  [a, b, c]. Reductions: the sum and the maximum over the last axis of an [a, b, c] array, the sum over its
  middle axis, the maximum over the last axis of an [a, b] array; the same on the host, and the host's sum of
  32-bit words along rows. Products: with a shared leading batch axis, lhs [B, M, K] against rhs [B, N, K]
  contracted over the last axis of both, and lhs [B, M, K] against rhs [B, K, N] contracted over the last axis of
  the first and the middle axis of the second; each entry of the result is the sum over the contracted
  coordinate of the operands' products, within one batch.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

/-- Addition of 32-bit words commutes. -/
instance addi32_comm : Std.Commutative (Idealize.ShloMosaic.IntOp.addi : BitVec 32 → BitVec 32 → BitVec 32) :=
  ⟨fun x y => BitVec.add_comm x y⟩
/-- Addition of 32-bit words is associative. -/
instance addi32_assoc : Std.Associative (Idealize.ShloMosaic.IntOp.addi : BitVec 32 → BitVec 32 → BitVec 32) :=
  ⟨fun x y z => BitVec.add_assoc x y z⟩

namespace Cert.LibBatch

open Idealize.ShloMosaic Idealize.ShloMosaic.ValueIdx

/-! ## Unit axes and broadcasts -/

section Layout
variable {α : Type}

/-- An [a, b] array cast to [a, b, 1] reads, at (p, q, u), the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b] array cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An [a] vector cast to an [a, 1] column reads, at (p, u), the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, b, 1] array broadcast to [a, b, c] reads, at (p, q, r), the operand at (p, q, 0). -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q (0 : Fin 1)) := by
  refine broadcastTo_apply x h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An [a, 1] column broadcast to [a, b] reads, at (p, q), the column at (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## Sums and maxima along an axis, in a kernel -/

section Reduce
variable {φ : FTy}

/-- The sum over the last axis of an [a, b, c] array reads, at (p, q), the sum over k of the array at (p, q, k). -/
theorem multiReduction_add_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  rw [Ideal.multiReduction_add_single]
  refine Finset.sum_congr rfl fun k _ => congrArg src (funext fun e => Fin.ext ?_)
  match e with
  | ⟨0, _⟩ => rfl
  | ⟨1, _⟩ => rfl
  | ⟨2, _⟩ => rfl

/-- The sum over the middle axis of an [a, b, c] array reads, at (p, r), the sum over k of the array at (p, k, r). -/
theorem multiReduction_add_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) := by
  rw [Ideal.multiReduction_add_single]
  refine Finset.sum_congr rfl fun k _ => congrArg src (funext fun e => Fin.ext ?_)
  match e with
  | ⟨0, _⟩ => rfl
  | ⟨1, _⟩ => rfl
  | ⟨2, _⟩ => rfl

/-- The sum over axis 1 of an [a, b] array reads, at p, the sum over k of the array at (p, k). -/
theorem multiReduction_add_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun e => Fin.ext ?_)
  match e with
  | ⟨0, _⟩ => rfl
  | ⟨1, _⟩ => rfl

/-- The maximum over the last axis of an [a, b, c] array reads, at (p, q), the maximum from the accumulator's value
    over k of the array at (p, q, k). -/
theorem multiReduction_max_last3 {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (Ideal.ofBits φ acc) (fun k => src (ix3 p q k)) := by
  rw [Ideal.multiReduction_maximumf_single]
  refine congrArg (fun f => Finset.fold max (Ideal.ofBits φ acc) f Finset.univ) (funext fun k => ?_)
  refine congrArg src (funext fun e => Fin.ext ?_)
  match e with
  | ⟨0, _⟩ => rfl
  | ⟨1, _⟩ => rfl
  | ⟨2, _⟩ => rfl

/-- The maximum over axis 1 of an [a, b] array reads, at p, the maximum from the accumulator's value over k of the
    array at (p, k). -/
theorem multiReduction_max_last2 {a b : ℕ} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  refine congrArg (fun f => Finset.fold max (Ideal.ofBits φ acc) f Finset.univ) (funext fun k => ?_)
  refine congrArg src (funext fun e => Fin.ext ?_)
  match e with
  | ⟨0, _⟩ => rfl
  | ⟨1, _⟩ => rfl

end Reduce

/-! ## The same on the host -/

section HostReduce
variable {φ : FTy}

/-- The host's maximum over the last axis of an [a, b, c] array reads, at (p, q), the maximum from the initial value
    over k of the array at (p, q, k). -/
theorem hostReduceMax_last3 {a b c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = (Finset.univ : Finset (Fin c)).fold max (init (Shape.Idx.first hu)) (fun k => x (ix3 p q k)) := by
  rw [Host.reduce_eq_fold_single FloatOps.maximumf x init h' h hu]
  show (Finset.univ : Finset (Fin c)).fold max (init (Shape.Idx.first hu)) (x ∘ h.lift (ix2 p q)) = _
  refine congrArg (fun f => Finset.fold max (init (Shape.Idx.first hu)) f Finset.univ) (funext fun k => ?_)
  refine congrArg x (funext fun e => Fin.ext ?_)
  match e with
  | ⟨0, _⟩ => rfl
  | ⟨1, _⟩ => rfl
  | ⟨2, _⟩ => rfl

/-- The host's maximum over axis 1 of an [a, b] array reads, at p, the maximum from the initial value over k of the
    array at (p, k). -/
theorem hostReduceMax_last2 {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  show (Finset.univ : Finset (Fin b)).fold max (init (Shape.Idx.first hu)) (x ∘ h.lift (ix1 p)) = _
  refine congrArg (fun f => Finset.fold max (init (Shape.Idx.first hu)) f Finset.univ) (funext fun k => ?_)
  refine congrArg x (funext fun e => Fin.ext ?_)
  match e with
  | ⟨0, _⟩ => rfl
  | ⟨1, _⟩ => rfl

/-- The host's sum of 32-bit words over axis 1 of an [a, b] array reads, at p, the words of row p added up from the
    initial word. -/
theorem hostReduceAddi_last2 {a b : ℕ} {u : Shape} (x : IVec ⟨2, ![a, b]⟩ 32) (init : u.Idx → BitVec 32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce IntOp.addi x init h' hu (ix1 p)
      = (Finset.univ : Finset (Fin b)).fold IntOp.addi (init (Shape.Idx.first hu)) (fun k => x (ix2 p k)) := by
  rw [Host.reduce_eq_fold_single IntOp.addi x init h' h hu]
  show (Finset.univ : Finset (Fin b)).fold IntOp.addi (init (Shape.Idx.first hu)) (x ∘ h.lift (ix1 p)) = _
  refine congrArg (fun f => Finset.fold IntOp.addi (init (Shape.Idx.first hu)) f Finset.univ) (funext fun k => ?_)
  refine congrArg x (funext fun e => Fin.ext ?_)
  match e with
  | ⟨0, _⟩ => rfl
  | ⟨1, _⟩ => rfl

end HostReduce

/-! ## Products with a shared leading batch axis -/

section BatchNT
variable {B M K N : ℕ} (d : DotDims ⟨3, ![B, M, K]⟩ ⟨3, ![B, N, K]⟩ ⟨3, ![B, M, N]⟩)

/-- The contracted shape has one axis. -/
theorem nt_contr_rank (hlc : d.lhsContracting = [2]) : d.contr.rank = 1 := by
  rw [d.rank_contr, hlc]; rfl

/-- The contracted shape's one axis has the operands' last extent. -/
theorem nt_contr_size (hlc : d.lhsContracting = [2]) :
    d.contr.size ⟨0, by rw [nt_contr_rank d hlc]; exact Nat.one_pos⟩ = K := by
  have h1 : (0 : ℕ) < d.lhsContracting.length := by rw [hlc]; exact Nat.one_pos
  rw [d.size_contr 0 h1, List.getElem_of_eq hlc h1]
  rfl

/-- Left operand, axis 0 (batch): the output's batch coordinate. -/
theorem nt_lhsIdx_axis0 (hlb : d.lhsBatch = [0])
    (j : (⟨3, ![B, M, N]⟩ : Shape).Idx) (k : d.contr.Idx) : (d.lhsIdx j k 0).val = (j 0).val := by
  have hb : (0 : Fin (⟨3, ![B, M, K]⟩ : Shape).rank) ∈ d.lhsBatch := by rw [hlb]; exact List.mem_singleton.mpr rfl
  unfold DotDims.lhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb])

/-- Left operand, axis 1 (kept): the output's row coordinate. -/
theorem nt_lhsIdx_axis1 (hln : d.lhsNonContracting = [1]) (hlb : d.lhsBatch = [0])
    (j : (⟨3, ![B, M, N]⟩ : Shape).Idx) (k : d.contr.Idx) : (d.lhsIdx j k 1).val = (j 1).val := by
  have hb : (1 : Fin (⟨3, ![B, M, K]⟩ : Shape).rank) ∉ d.lhsBatch := by
    rw [hlb]; intro h; exact Nat.one_ne_zero (congrArg Fin.val (List.mem_singleton.mp h))
  have hn : (1 : Fin (⟨3, ![B, M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln])

/-- Left operand, axis 2 (contracted): the contraction position's one coordinate. -/
theorem nt_lhsIdx_axis2 (hlc : d.lhsContracting = [2])
    (j : (⟨3, ![B, M, N]⟩ : Shape).Idx) (k : d.contr.Idx) :
    (d.lhsIdx j k 2).val = (k ⟨0, by rw [nt_contr_rank d hlc]; exact Nat.one_pos⟩).val :=
  d.lhsIdx_val_of_single hlc j k

/-- Right operand, axis 0 (batch): the output's batch coordinate. -/
theorem nt_rhsIdx_axis0 (hrb : d.rhsBatch = [0])
    (j : (⟨3, ![B, M, N]⟩ : Shape).Idx) (k : d.contr.Idx) : (d.rhsIdx j k 0).val = (j 0).val := by
  have hb : (0 : Fin (⟨3, ![B, N, K]⟩ : Shape).rank) ∈ d.rhsBatch := by rw [hrb]; exact List.mem_singleton.mpr rfl
  unfold DotDims.rhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hrb])

/-- Right operand, axis 1 (kept): the output's column coordinate. -/
theorem nt_rhsIdx_axis1 (hln : d.lhsNonContracting = [1]) (hrn : d.rhsNonContracting = [1]) (hlb : d.lhsBatch = [0])
    (hrb : d.rhsBatch = [0]) (j : (⟨3, ![B, M, N]⟩ : Shape).Idx) (k : d.contr.Idx) : (d.rhsIdx j k 1).val = (j 2).val := by
  have hb : (1 : Fin (⟨3, ![B, N, K]⟩ : Shape).rank) ∉ d.rhsBatch := by
    rw [hrb]; intro h; exact Nat.one_ne_zero (congrArg Fin.val (List.mem_singleton.mp h))
  have hn : (1 : Fin (⟨3, ![B, N, K]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln, hrn])

/-- Right operand, axis 2 (contracted): the contraction position's one coordinate. -/
theorem nt_rhsIdx_axis2 (hlc : d.lhsContracting = [2]) (hrc : d.rhsContracting = [2])
    (j : (⟨3, ![B, M, N]⟩ : Shape).Idx) (k : d.contr.Idx) :
    (d.rhsIdx j k 2).val = (k ⟨0, by rw [nt_contr_rank d hlc]; exact Nat.one_pos⟩).val :=
  d.rhsIdx_val_of_single hrc j k

/-- lhs [B, M, K] against rhs [B, N, K], contracted over the last axis of both within each batch: the entry at
    (p, i, j) is the sum over k of lhs (p, i, k) * rhs (p, j, k). -/
theorem bmm_nt_zero_ix3 {φ₁ φ₂ : FTy} (hlc : d.lhsContracting = [2]) (hrc : d.rhsContracting = [2])
    (hln : d.lhsNonContracting = [1]) (hrn : d.rhsNonContracting = [1]) (hlb : d.lhsBatch = [0]) (hrb : d.rhsBatch = [0])
    (prec : Option ContractPrecision) (lhs : FVec Ideal ⟨3, ![B, M, K]⟩ φ₁) (rhs : FVec Ideal ⟨3, ![B, N, K]⟩ φ₂)
    (p : Fin B) (i : Fin M) (j : Fin N) :
    FloatOps.matmul d prec lhs rhs (constant ⟨3, ![B, M, N]⟩ .f32 0x00000000#32) (ix3 p i j)
      = ∑ k : Fin K, lhs (ix3 p i k) * rhs (ix3 p j k) := by
  rw [Ideal.matmul_constant_zero_apply]
  rw [← Equiv.sum_comp (contrEquiv1 d K (nt_contr_rank d hlc) (nt_contr_size d hlc)).symm]
  refine Finset.sum_congr rfl fun k _ => ?_
  have hk := contrEquiv1_symm_val d K (nt_contr_rank d hlc) (nt_contr_size d hlc) k
  have hl : d.lhsIdx (ix3 p i j) ((contrEquiv1 d K (nt_contr_rank d hlc) (nt_contr_size d hlc)).symm k) = ix3 p i k := by
    funext a
    refine Fin.ext ?_
    match a with
    | ⟨0, _⟩ => exact nt_lhsIdx_axis0 d hlb _ _
    | ⟨1, _⟩ => exact nt_lhsIdx_axis1 d hln hlb _ _
    | ⟨2, _⟩ => exact (nt_lhsIdx_axis2 d hlc _ _).trans hk
  have hr : d.rhsIdx (ix3 p i j) ((contrEquiv1 d K (nt_contr_rank d hlc) (nt_contr_size d hlc)).symm k) = ix3 p j k := by
    funext a
    refine Fin.ext ?_
    match a with
    | ⟨0, _⟩ => exact nt_rhsIdx_axis0 d hrb _ _
    | ⟨1, _⟩ => exact nt_rhsIdx_axis1 d hln hrn hlb hrb _ _
    | ⟨2, _⟩ => exact (nt_rhsIdx_axis2 d hlc hrc _ _).trans hk
  rw [hl, hr]

end BatchNT

section BatchNN
variable {B M K N : ℕ} (d : DotDims ⟨3, ![B, M, K]⟩ ⟨3, ![B, K, N]⟩ ⟨3, ![B, M, N]⟩)

/-- The contracted shape has one axis. -/
theorem nn_contr_rank (hlc : d.lhsContracting = [2]) : d.contr.rank = 1 := by
  rw [d.rank_contr, hlc]; rfl

/-- The contracted shape's one axis has the left operand's last extent. -/
theorem nn_contr_size (hlc : d.lhsContracting = [2]) :
    d.contr.size ⟨0, by rw [nn_contr_rank d hlc]; exact Nat.one_pos⟩ = K := by
  have h1 : (0 : ℕ) < d.lhsContracting.length := by rw [hlc]; exact Nat.one_pos
  rw [d.size_contr 0 h1, List.getElem_of_eq hlc h1]
  rfl

/-- Left operand, axis 0 (batch): the output's batch coordinate. -/
theorem nn_lhsIdx_axis0 (hlb : d.lhsBatch = [0])
    (j : (⟨3, ![B, M, N]⟩ : Shape).Idx) (k : d.contr.Idx) : (d.lhsIdx j k 0).val = (j 0).val := by
  have hb : (0 : Fin (⟨3, ![B, M, K]⟩ : Shape).rank) ∈ d.lhsBatch := by rw [hlb]; exact List.mem_singleton.mpr rfl
  unfold DotDims.lhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb])

/-- Left operand, axis 1 (kept): the output's row coordinate. -/
theorem nn_lhsIdx_axis1 (hln : d.lhsNonContracting = [1]) (hlb : d.lhsBatch = [0])
    (j : (⟨3, ![B, M, N]⟩ : Shape).Idx) (k : d.contr.Idx) : (d.lhsIdx j k 1).val = (j 1).val := by
  have hb : (1 : Fin (⟨3, ![B, M, K]⟩ : Shape).rank) ∉ d.lhsBatch := by
    rw [hlb]; intro h; exact Nat.one_ne_zero (congrArg Fin.val (List.mem_singleton.mp h))
  have hn : (1 : Fin (⟨3, ![B, M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln])

/-- Left operand, axis 2 (contracted): the contraction position's one coordinate. -/
theorem nn_lhsIdx_axis2 (hlc : d.lhsContracting = [2])
    (j : (⟨3, ![B, M, N]⟩ : Shape).Idx) (k : d.contr.Idx) :
    (d.lhsIdx j k 2).val = (k ⟨0, by rw [nn_contr_rank d hlc]; exact Nat.one_pos⟩).val :=
  d.lhsIdx_val_of_single hlc j k

/-- Right operand, axis 0 (batch): the output's batch coordinate. -/
theorem nn_rhsIdx_axis0 (hrb : d.rhsBatch = [0])
    (j : (⟨3, ![B, M, N]⟩ : Shape).Idx) (k : d.contr.Idx) : (d.rhsIdx j k 0).val = (j 0).val := by
  have hb : (0 : Fin (⟨3, ![B, K, N]⟩ : Shape).rank) ∈ d.rhsBatch := by rw [hrb]; exact List.mem_singleton.mpr rfl
  unfold DotDims.rhsIdx
  rw [dif_pos hb]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hrb])

/-- Right operand, axis 1 (contracted): the contraction position's one coordinate. -/
theorem nn_rhsIdx_axis1 (hlc : d.lhsContracting = [2]) (hrc : d.rhsContracting = [1])
    (j : (⟨3, ![B, M, N]⟩ : Shape).Idx) (k : d.contr.Idx) :
    (d.rhsIdx j k 1).val = (k ⟨0, by rw [nn_contr_rank d hlc]; exact Nat.one_pos⟩).val :=
  d.rhsIdx_val_of_single hrc j k

/-- Right operand, axis 2 (kept): the output's column coordinate. -/
theorem nn_rhsIdx_axis2 (hln : d.lhsNonContracting = [1]) (hrn : d.rhsNonContracting = [2]) (hlb : d.lhsBatch = [0])
    (hrb : d.rhsBatch = [0]) (j : (⟨3, ![B, M, N]⟩ : Shape).Idx) (k : d.contr.Idx) : (d.rhsIdx j k 2).val = (j 2).val := by
  have hb : (2 : Fin (⟨3, ![B, K, N]⟩ : Shape).rank) ∉ d.rhsBatch := by
    rw [hrb]; intro h; exact Nat.succ_ne_zero 1 (congrArg Fin.val (List.mem_singleton.mp h))
  have hn : (2 : Fin (⟨3, ![B, K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨3, ![B, M, N]⟩ : Shape).rank) (hb : b < (⟨3, ![B, M, N]⟩ : Shape).rank), a = b →
      (j ⟨a, ha⟩).val = (j ⟨b, hb⟩).val := fun a b ha hb h => by subst h; rfl
  exact key _ _ _ _ (by simp [hlb, hln, hrn])

/-- lhs [B, M, K] against rhs [B, K, N], contracted over the last axis of the first and the middle axis of the
    second within each batch: the entry at (p, i, j) is the sum over k of lhs (p, i, k) * rhs (p, k, j). -/
theorem bmm_nn_zero_ix3 {φ₁ φ₂ : FTy} (hlc : d.lhsContracting = [2]) (hrc : d.rhsContracting = [1])
    (hln : d.lhsNonContracting = [1]) (hrn : d.rhsNonContracting = [2]) (hlb : d.lhsBatch = [0]) (hrb : d.rhsBatch = [0])
    (prec : Option ContractPrecision) (lhs : FVec Ideal ⟨3, ![B, M, K]⟩ φ₁) (rhs : FVec Ideal ⟨3, ![B, K, N]⟩ φ₂)
    (p : Fin B) (i : Fin M) (j : Fin N) :
    FloatOps.matmul d prec lhs rhs (constant ⟨3, ![B, M, N]⟩ .f32 0x00000000#32) (ix3 p i j)
      = ∑ k : Fin K, lhs (ix3 p i k) * rhs (ix3 p k j) := by
  rw [Ideal.matmul_constant_zero_apply]
  rw [← Equiv.sum_comp (contrEquiv1 d K (nn_contr_rank d hlc) (nn_contr_size d hlc)).symm]
  refine Finset.sum_congr rfl fun k _ => ?_
  have hk := contrEquiv1_symm_val d K (nn_contr_rank d hlc) (nn_contr_size d hlc) k
  have hl : d.lhsIdx (ix3 p i j) ((contrEquiv1 d K (nn_contr_rank d hlc) (nn_contr_size d hlc)).symm k) = ix3 p i k := by
    funext a
    refine Fin.ext ?_
    match a with
    | ⟨0, _⟩ => exact nn_lhsIdx_axis0 d hlb _ _
    | ⟨1, _⟩ => exact nn_lhsIdx_axis1 d hln hlb _ _
    | ⟨2, _⟩ => exact (nn_lhsIdx_axis2 d hlc _ _).trans hk
  have hr : d.rhsIdx (ix3 p i j) ((contrEquiv1 d K (nn_contr_rank d hlc) (nn_contr_size d hlc)).symm k) = ix3 p k j := by
    funext a
    refine Fin.ext ?_
    match a with
    | ⟨0, _⟩ => exact nn_rhsIdx_axis0 d hrb _ _
    | ⟨1, _⟩ => exact (nn_rhsIdx_axis1 d hlc hrc _ _).trans hk
    | ⟨2, _⟩ => exact nn_rhsIdx_axis2 d hln hrn hlb hrb _ _
  rw [hl, hr]

end BatchNN

end Cert.LibBatch

end
-- ==== Proof.Spec.lean ====
/-
  What the two programs compute, as functions of the argument arrays on the extended reals, each written the way
  its program computes it.

  One entry (b, n): the cosine of the two rows a = emb_mut[b, n, :] and c = emb_heal[b, n, :]. The reference divides
  the dot product by the product of the two norms, each norm floored at a constant; the kernel multiplies the dot
  product by the reciprocal square roots of the two squared norms, each floored at that constant's square.

  One batch row b, from its 64 cosines, its clipped agent index j and its mask row: a weighted sum of
  relu(cos[j] + 1) and of the mean of 1 - cos over the masked agents other than j. The reference picks cos[j] by
  the index and counts the others as integers; the kernel sums against the indicator of j and counts in floats.

  The whole: the mean of the per-row values over the rows whose index is a valid agent. The reference sums once
  and counts valid rows as an integer; the kernel sums each block of 64 rows, writes the block's sum times 2^-10
  into 8 x 128 cells, and sums all cells afterwards, doing the same with the count of valid rows.
-/
import Idealize.ShloMosaic.PureOps.Ideal
import Idealize.ShloMosaic.PureOps.Ideal.Laws
import Idealize.ShloMosaic.Lib.ValueIdx
import proofs.«417486_j44770739094063_3_alg».proof.Proof.LibBatch

noncomputable section

open scoped BigOperators

namespace Cert.Spec

open Idealize.ShloMosaic Idealize.ShloMosaic.ValueIdx

/-! ## The constants, as the words both programs print -/

abbrev fOne : EReal := Ideal.ofBits .f32 0x3F800000#32
abbrev fZero : EReal := Ideal.ofBits .f32 0x00000000#32
/-- The weight of the target term (the single-precision word nearest 0.7). -/
abbrev wTarget : EReal := Ideal.ofBits .f32 0x3F333333#32
/-- The weight of the other agents' term (the single-precision word nearest 0.3). -/
abbrev wOthers : EReal := Ideal.ofBits .f32 0x3E99999A#32
/-- 2^-10: a block's sum is spread over 8 * 128 = 2^10 cells. -/
abbrev packScale : EReal := Ideal.ofBits .f32 0x3A800000#32
/-- The floor under a norm: the reference's word, 11258999 / 2^50. -/
abbrev normFloor : EReal := Ideal.ofBits .f32 0x322BCC77#32
/-- The floor under a squared norm: the square of the norm's floor, 11258999^2 / 2^100. -/
abbrev sqFloor : EReal := ((126765058482001 / 1267650600228229401496703205376 : ℝ) : EReal)

/-! ## Index words -/

/-- An index word clipped into [0, 63]. -/
def clipIdx (i : BitVec 32) : BitVec 32 := IntOp.minsi 63#32 (IntOp.maxsi 0#32 i)

/-- Whether an index word names an agent: 0 ≤ i < 64 as signed integers. -/
def validBit (i : BitVec 32) : BitVec 1 := IntOp.andi (IntOp.cmpi .sge i 0#32) (IntOp.cmpi .slt i 64#32)

/-- The column a clipped index word names. -/
def pick (j : BitVec 32) : Fin 64 := ⟨min j.toInt.toNat 63, by omega⟩

/-- A one-bit word as a float: 0 or 1. -/
def ufloat (b : BitVec 1) : EReal := FloatOps.uitofp (F := Ideal) .f32 b

/-! ## One entry: the cosine of two rows -/

def dot (a c : Fin 256 → EReal) : EReal := ∑ d, a d * c d

/-- The reference's cosine: the dot product over the product of the floored norms. -/
def cosRef (a c : Fin 256 → EReal) : EReal :=
  Ideal.div (dot a c) (max (Ideal.sqrt (dot a a)) normFloor * max (Ideal.sqrt (dot c c)) normFloor)

/-- The kernel's cosine: the dot product times the reciprocal roots of the floored squared norms. -/
def cosKer (a c : Fin 256 → EReal) : EReal :=
  dot a c * Ideal.rsqrt (max (dot a a) sqFloor) * Ideal.rsqrt (max (dot c c) sqFloor)

/-! ## One batch row -/

/-- The reference's bit "agent n is masked in and is not the target j". -/
def otherBit (mk : Fin 64 → BitVec 1) (j : BitVec 32) (n : Fin 64) : BitVec 1 :=
  IntOp.andi (mk n) (IntOp.cmpi .ne (BitVec.ofNat 32 n.val) j)

/-- The reference's value of one row. -/
def rowRef (cs : Fin 64 → EReal) (j : BitVec 32) (mk : Fin 64 → BitVec 1) : EReal :=
  let cnt : BitVec 32 :=
    (Finset.univ : Finset (Fin 64)).fold IntOp.addi 0#32 (fun n => (otherBit mk j n).setWidth 32)
  let so : EReal := ∑ n, Scalar.select (otherBit mk j n) (fOne - cs n) fZero
  wTarget * max (cs (pick j) + fOne) fZero
    + wOthers * Scalar.select (IntOp.cmpi .sgt cnt 0#32)
        (Ideal.div so (((IntOp.maxsi cnt 1#32).toInt : ℝ) : EReal)) fZero

/-- The kernel's indicator of the target: 1 at column j, 0 elsewhere, as a float. -/
def hot (j : BitVec 32) (n : Fin 64) : EReal :=
  FloatOps.sitofp (F := Ideal) .f32 ((IntOp.cmpi .eq (BitVec.ofNat 32 n.val) j).setWidth 32)

/-- The kernel's value of one row, from the float mask row mf. -/
def rowKer (cs : Fin 64 → EReal) (j : BitVec 32) (mf : Fin 64 → EReal) : EReal :=
  let nf : Fin 64 → EReal := fun n => mf n * (fOne - hot j n)
  let cnt : EReal := ∑ n, nf n
  let so : EReal := ∑ n, nf n * (fOne - cs n)
  wTarget * max ((∑ n, hot j n * cs n) + fOne) fZero
    + wOthers * Scalar.select (Ideal.cmp .ogt cnt fZero) (Ideal.div so (max cnt fOne)) fZero

/-! ## The whole -/

/-- Row p of block t. -/
def rowOf (t : Fin 16) (p : Fin 64) : Fin 1024 := ⟨t.val * 64 + p.val, by omega⟩

/-- The reference's result from the per-row values ps, the index words and the sum of emb_mut. -/
def finalRef (ps : Fin 1024 → EReal) (i : Fin 1024 → BitVec 32) (sumA : EReal) : EReal :=
  let nv : BitVec 32 :=
    (Finset.univ : Finset (Fin 1024)).fold IntOp.addi 0#32 (fun b => (validBit (i b)).setWidth 32)
  let total : EReal := ∑ b, Scalar.select (validBit (i b)) (ps b) fZero
  Scalar.select (IntOp.cmpi .sgt nv 0#32)
    (Ideal.div total (((IntOp.maxsi nv 1#32).toInt : ℝ) : EReal)) (sumA * fZero)

/-- A per-block quantity g spread over 8 x 128 cells at 2^-10 each and summed over all cells of all blocks. -/
def spread (g : Fin 16 → EReal) : EReal := ∑ t : Fin 16, ∑ _r : Fin 8, ∑ _l : Fin 128, g t * packScale

/-- The kernel's result from the per-row values ps, the rows' validity as floats vf, and the blocks' sums of
    emb_mut. -/
def finalKer (ps : Fin 1024 → EReal) (vf : Fin 1024 → EReal) (e : Fin 16 → EReal) : EReal :=
  let total : EReal := spread fun t => ∑ p : Fin 64, ps (rowOf t p) * vf (rowOf t p)
  let cnt : EReal := spread fun t => ∑ p : Fin 64, vf (rowOf t p)
  Scalar.select (Ideal.cmp .ogt cnt fZero) (Ideal.div total (max cnt fOne)) (spread e * fZero)

abbrev ShA : Shape := ⟨3, ![1024, 64, 256]⟩
abbrev ShI : Shape := ⟨1, ![1024]⟩
abbrev ShM : Shape := ⟨2, ![1024, 64]⟩

/-- The reference's result as a function of the four argument arrays. -/
def resultRef (A C : ShA.Idx → EReal) (idx : ShI.Idx → BitVec 32) (mask : ShM.Idx → BitVec 1) : EReal :=
  finalRef
    (fun b => rowRef (fun n => cosRef (fun d => A (ix3 b n d)) (fun d => C (ix3 b n d)))
      (clipIdx (idx (ix1 b))) (fun n => mask (ix2 b n)))
    (fun b => idx (ix1 b))
    (∑ b : Fin 1024, ∑ n : Fin 64, ∑ d : Fin 256, A (ix3 b n d))

/-- The kernel's result as a function of the four argument arrays. -/
def resultKer (A C : ShA.Idx → EReal) (idx : ShI.Idx → BitVec 32) (mask : ShM.Idx → BitVec 1) : EReal :=
  finalKer
    (fun b => rowKer (fun n => cosKer (fun d => A (ix3 b n d)) (fun d => C (ix3 b n d)))
      (clipIdx (idx (ix1 b))) (fun n => ufloat (mask (ix2 b n))))
    (fun b => ufloat (validBit (idx (ix1 b))))
    (fun t => ∑ p : Fin 64, ∑ n : Fin 64, ∑ d : Fin 256, A (ix3 (rowOf t p) n d))

end Cert.Spec

end
-- ==== Proof.AlgebraCos.lean ====
/-
  One entry's cosine is the same extended real either way, for rows of real numbers.

  With s = Σ a² ≥ 0 and the floor D > 0: max (√s) D = √(max s D²), because the square root is monotone and
  √(D²) = D; so 1 / max (√s) D is the reciprocal square root of max s D², which is positive. The quotient by the
  product of the two floored norms is then the product with the two reciprocal roots.
-/
import proofs.«417486_j44770739094063_3_alg».proof.Proof.Spec
import Mathlib.Analysis.Real.Sqrt
import Mathlib.Data.EReal.Inv

noncomputable section

open scoped BigOperators

namespace Cert.Algebra

open Idealize.ShloMosaic Cert.Spec

/-- The norm's floor is the real 11258999 / 2^50. -/
theorem normFloor_eq : normFloor = ((11258999 / 1125899906842624 : ℝ) : EReal) := by
  simp [Ideal.ofBits, Ideal.ieee, -EReal.coe_mul]
  norm_num

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The dot product of two rows of reals, as the coercion of the real dot product. -/
private theorem dot_coe (a c : Fin 256 → ℝ) :
    dot (fun d => (a d : EReal)) (fun d => (c d : EReal)) = ((∑ d, a d * c d : ℝ) : EReal) := by
  unfold dot
  rw [coe_sum]
  exact Finset.sum_congr rfl fun d _ => (EReal.coe_mul _ _).symm

/-- A sum of products of real entries is real. -/
theorem dot_real (a c : Fin 256 → EReal) (ha : ∀ d, ∃ r : ℝ, a d = (r : EReal)) (hc : ∀ d, ∃ r : ℝ, c d = (r : EReal)) :
    ∃ r : ℝ, dot a c = (r : EReal) := by
  choose a' ha' using ha
  choose c' hc' using hc
  obtain rfl : a = fun d => (a' d : EReal) := funext ha'
  obtain rfl : c = fun d => (c' d : EReal) := funext hc'
  exact ⟨_, dot_coe a' c'⟩

/-- The floored norm is the root of the floored squared norm. -/
private theorem max_sqrt (s D : ℝ) (hD : 0 ≤ D) : max (Real.sqrt s) D = Real.sqrt (max s (D ^ 2)) := by
  have hm : Monotone Real.sqrt := fun _ _ h => Real.sqrt_le_sqrt h
  rw [hm.map_max, Real.sqrt_sq hD]

/-- The floor under a squared norm is the square of the floor under a norm. -/
private theorem sqFloor_eq : sqFloor = (((11258999 / 1125899906842624 : ℝ) ^ 2 : ℝ) : EReal) := by
  show ((126765058482001 / 1267650600228229401496703205376 : ℝ) : EReal) = _
  congr 1
  norm_num

private theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The two cosines of real rows with dot products p, s ≥ 0, t ≥ 0, as one real. -/
private theorem cos_core (p s t : ℝ) (hs : 0 ≤ s) (ht : 0 ≤ t) :
    (p : EReal) * Ideal.rsqrt (max (s : EReal) sqFloor) * Ideal.rsqrt (max (t : EReal) sqFloor)
        = ((p * (Real.sqrt (max s ((11258999 / 1125899906842624 : ℝ) ^ 2)))⁻¹
            * (Real.sqrt (max t ((11258999 / 1125899906842624 : ℝ) ^ 2)))⁻¹ : ℝ) : EReal)
      ∧ Ideal.div (p : EReal) (max (Ideal.sqrt (s : EReal)) normFloor * max (Ideal.sqrt (t : EReal)) normFloor)
        = ((p * (Real.sqrt (max s ((11258999 / 1125899906842624 : ℝ) ^ 2)))⁻¹
            * (Real.sqrt (max t ((11258999 / 1125899906842624 : ℝ) ^ 2)))⁻¹ : ℝ) : EReal) := by
  have hD : (0 : ℝ) < 11258999 / 1125899906842624 := by norm_num
  have hQ : (0 : ℝ) < (11258999 / 1125899906842624 : ℝ) ^ 2 := pow_pos hD 2
  have hms : 0 < max s ((11258999 / 1125899906842624 : ℝ) ^ 2) := lt_max_of_lt_right hQ
  have hmt : 0 < max t ((11258999 / 1125899906842624 : ℝ) ^ 2) := lt_max_of_lt_right hQ
  constructor
  · rw [sqFloor_eq, coe_max, coe_max, Ideal.rsqrt_coe, Ideal.rsqrt_coe, if_neg (not_lt.2 hms.le), if_neg hms.ne',
      if_neg (not_lt.2 hmt.le), if_neg hmt.ne', ← EReal.coe_mul, ← EReal.coe_mul]
  · rw [normFloor_eq, Ideal.sqrt_coe, Ideal.sqrt_coe, if_neg (not_lt.2 hs), if_neg (not_lt.2 ht), coe_max, coe_max,
      max_sqrt s _ hD.le, max_sqrt t _ hD.le, ← EReal.coe_mul]
    have hne : Real.sqrt (max s ((11258999 / 1125899906842624 : ℝ) ^ 2))
        * Real.sqrt (max t ((11258999 / 1125899906842624 : ℝ) ^ 2)) ≠ 0 :=
      mul_ne_zero (Real.sqrt_ne_zero'.2 hms) (Real.sqrt_ne_zero'.2 hmt)
    rw [Ideal.div_coe hne, ← EReal.coe_mul, one_div, mul_inv, mul_assoc]

/-- A row of reals has a nonnegative squared norm. -/
private theorem sq_sum_nonneg (a : Fin 256 → ℝ) : 0 ≤ ∑ d, a d * a d :=
  Finset.sum_nonneg fun d _ => mul_self_nonneg (a d)

/-- For rows of reals the kernel's cosine is the reference's. -/
theorem cos_eq (a c : Fin 256 → EReal) (ha : ∀ d, ∃ r : ℝ, a d = (r : EReal)) (hc : ∀ d, ∃ r : ℝ, c d = (r : EReal)) :
    cosKer a c = cosRef a c := by
  choose a' ha' using ha
  choose c' hc' using hc
  obtain rfl : a = fun d => (a' d : EReal) := funext ha'
  obtain rfl : c = fun d => (c' d : EReal) := funext hc'
  obtain ⟨h1, h2⟩ := cos_core (∑ d, a' d * c' d) _ _ (sq_sum_nonneg a') (sq_sum_nonneg c')
  unfold cosKer cosRef
  rw [dot_coe, dot_coe, dot_coe, h1, h2]

/-- For rows of reals the cosine is a real number. -/
theorem cosRef_real (a c : Fin 256 → EReal) (ha : ∀ d, ∃ r : ℝ, a d = (r : EReal)) (hc : ∀ d, ∃ r : ℝ, c d = (r : EReal)) :
    ∃ r : ℝ, cosRef a c = (r : EReal) := by
  choose a' ha' using ha
  choose c' hc' using hc
  obtain rfl : a = fun d => (a' d : EReal) := funext ha'
  obtain rfl : c = fun d => (c' d : EReal) := funext hc'
  obtain ⟨_, h2⟩ := cos_core (∑ d, a' d * c' d) _ _ (sq_sum_nonneg a') (sq_sum_nonneg c')
  unfold cosRef
  rw [dot_coe, dot_coe, dot_coe, h2]
  exact ⟨_, rfl⟩

end Cert.Algebra

end
-- ==== Proof.AlgebraRow.lean ====
/-
  One batch row has the same value either way, when its cosines are real and the index is clipped.

  A clipped index j lies in [0, 63], so the indicator of j is 1 at exactly one column, pick j, and 0 elsewhere:
  the sum of indicator times cosine is the cosine at pick j. A mask bit as a float is 0 or 1, and mask times
  (1 - indicator) is the float of the bit "masked in and not the target"; summing 64 such floats gives the real
  number of set bits, which is what the 32-bit integer sum holds (at most 64, no wrap) read as a signed integer.
  So the float count is positive exactly when the integer count is, max count 1 agrees, and the sum of
  bit-float times (1 - cos) is the sum that selects 1 - cos on set bits and 0 elsewhere.
-/
import proofs.«417486_j44770739094063_3_alg».proof.Proof.Spec
import Mathlib.Data.EReal.Basic
import Mathlib.Data.EReal.Operations
import Mathlib.Data.Finset.Fold
import Mathlib.Algebra.BigOperators.Group.Finset.Basic
import Mathlib.Algebra.Order.BigOperators.Group.Finset
import Mathlib.Order.MinMax

noncomputable section

open scoped BigOperators

namespace Cert.Algebra

open Idealize.ShloMosaic Idealize.ShloMosaic.ValueIdx Cert.Spec

/-- A clipped index word is a signed integer in [0, 63]. -/
theorem clipIdx_range (i : BitVec 32) : 0 ≤ (clipIdx i).toInt ∧ (clipIdx i).toInt ≤ 63 := by
  have h0 : (0#32).toInt = 0 := by decide
  have h63 : (63#32).toInt = 63 := by decide
  unfold clipIdx IntOp.minsi IntOp.maxsi
  simp only [BitVec.slt_iff_toInt_lt]
  split_ifs <;> omega

/-! ## The constants and the conversions, as extended reals -/

/-- A one-bit word is 0 or 1. -/
private theorem bit_cases (b : BitVec 1) : b = 0#1 ∨ b = 1#1 := BitVec.eq_zero_or_eq_one b

/-- The word 0x3F800000 denotes 1. -/
private theorem fOne_eq : fOne = 1 := by
  simp [fOne, Ideal.ofBits, Ideal.ieee]
  rw [← EReal.coe_mul, ← EReal.coe_one]
  congr 1
  norm_num

/-- The word 0 denotes 0. -/
private theorem fZero_eq : fZero = 0 := Ideal.ofBits_zero_f32

/-- A one-bit word as a float is its unsigned value. -/
private theorem ufloat_eq (b : BitVec 1) : ufloat b = ((b.toNat : ℝ) : EReal) := rfl

private theorem ufloat_zero : ufloat 0#1 = 0 := by
  rw [ufloat_eq]; simp

private theorem ufloat_one : ufloat 1#1 = 1 := by
  rw [ufloat_eq]; simp

/-- The indicator is the comparison's bit, widened and read as a signed integer. -/
private theorem hot_eq (j : BitVec 32) (n : Fin 64) :
    hot j n = ((((IntOp.cmpi .eq (BitVec.ofNat 32 n.val) j).setWidth 32).toInt : ℝ) : EReal) := rfl

private theorem one_sub_one : (1 : EReal) - 1 = 0 := by
  rw [← EReal.coe_one, ← EReal.coe_sub, sub_self, EReal.coe_zero]

/-! ## Reals inside the extended reals -/

/-- An extended real that is a real number. -/
private def IsReal (x : EReal) : Prop := ∃ r : ℝ, x = (r : EReal)

private theorem IsReal.add {x y : EReal} (hx : IsReal x) (hy : IsReal y) : IsReal (x + y) := by
  obtain ⟨a, rfl⟩ := hx; obtain ⟨b, rfl⟩ := hy; exact ⟨a + b, (EReal.coe_add a b).symm⟩

private theorem IsReal.sub {x y : EReal} (hx : IsReal x) (hy : IsReal y) : IsReal (x - y) := by
  obtain ⟨a, rfl⟩ := hx; obtain ⟨b, rfl⟩ := hy; exact ⟨a - b, (EReal.coe_sub a b).symm⟩

private theorem IsReal.mul {x y : EReal} (hx : IsReal x) (hy : IsReal y) : IsReal (x * y) := by
  obtain ⟨a, rfl⟩ := hx; obtain ⟨b, rfl⟩ := hy; exact ⟨a * b, (EReal.coe_mul a b).symm⟩

private theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

private theorem IsReal.select {x y : EReal} (c : BitVec 1) (hx : IsReal x) (hy : IsReal y) :
    IsReal (Scalar.select c x y) := by
  unfold Scalar.select; split_ifs <;> assumption

private theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

private theorem IsReal.div_coe {x : EReal} (hx : IsReal x) {y : ℝ} (hy : y ≠ 0) :
    IsReal (Ideal.div x (y : EReal)) := by
  rw [Ideal.div_coe hy]; exact hx.mul ⟨_, rfl⟩

private theorem isReal_zero : IsReal 0 := ⟨0, rfl⟩
private theorem isReal_one : IsReal 1 := ⟨1, rfl⟩

private theorem wTarget_real : IsReal wTarget := by
  unfold IsReal
  simp [wTarget, Ideal.ofBits, Ideal.ieee]
  exact ⟨_, (EReal.coe_mul _ _).symm⟩

private theorem wOthers_real : IsReal wOthers := by
  unfold IsReal
  simp [wOthers, Ideal.ofBits, Ideal.ieee]
  exact ⟨_, (EReal.coe_mul _ _).symm⟩

/-! ## Counting set bits: in 32-bit words and in floats -/

/-- Small naturals read back from a 32-bit word as themselves. -/
private theorem toInt_ofNat_small {k : ℕ} (hk : k ≤ 64) : (BitVec.ofNat 32 k).toInt = (k : ℤ) := by
  rw [BitVec.toInt_eq_toNat_cond, BitVec.toNat_ofNat]
  split_ifs <;> omega

/-- The 32-bit sum of widened bits is the word of the natural number of set bits. -/
private theorem fold_bits {ι : Type*} (T : Finset ι) (f : ι → BitVec 1) :
    T.fold IntOp.addi 0#32 (fun n => (f n).setWidth 32) = BitVec.ofNat 32 (∑ n ∈ T, (f n).toNat) := by
  classical
  induction T using Finset.induction_on with
  | empty => simp
  | insert a s ha ih =>
    rw [Finset.fold_insert ha, Finset.sum_insert ha, ih]
    apply BitVec.eq_of_toNat_eq
    simp only [IntOp.addi, BitVec.toNat_add, BitVec.toNat_setWidth, BitVec.toNat_ofNat]
    omega

/-- The float sum of bits is the natural number of set bits. -/
private theorem sum_ufloat {ι : Type*} (T : Finset ι) (f : ι → BitVec 1) :
    ∑ n ∈ T, ufloat (f n) = (((∑ n ∈ T, (f n).toNat : ℕ) : ℝ) : EReal) := by
  classical
  induction T using Finset.induction_on with
  | empty => simp
  | insert a s ha ih =>
    rw [Finset.sum_insert ha, Finset.sum_insert ha, ih, ufloat_eq, ← EReal.coe_add, Nat.cast_add]

/-- At most 64 bits are set. -/
private theorem count_le (f : Fin 64 → BitVec 1) : ∑ n, (f n).toNat ≤ 64 := by
  have h : ∀ n ∈ (Finset.univ : Finset (Fin 64)), (f n).toNat ≤ 1 := fun n _ => by
    have := (f n).isLt; omega
  have := Finset.sum_le_card_nsmul _ _ 1 h
  simpa using this

/-- The float count is positive exactly when the integer count is. -/
private theorem cond_agree (f : Fin 64 → BitVec 1) :
    Ideal.cmp .ogt (∑ n, ufloat (f n)) fZero
      = IntOp.cmpi .sgt ((Finset.univ : Finset (Fin 64)).fold IntOp.addi 0#32 (fun n => (f n).setWidth 32)) 0#32 := by
  rw [sum_ufloat, fold_bits, fZero_eq]
  have hK := count_le f
  generalize ∑ n, (f n).toNat = K at hK
  have h0 : (0#32).toInt = 0 := by decide
  unfold Ideal.cmp IntOp.cmpi
  simp only
  congr 1
  rw [BitVec.slt_eq_decide, toInt_ofNat_small hK, h0]
  by_cases h : 0 < K
  · have h1 : (0 : EReal) < ((K : ℝ) : EReal) := EReal.coe_pos.2 (by exact_mod_cast h)
    have h2 : (0 : ℤ) < (K : ℤ) := by exact_mod_cast h
    rw [decide_eq_true h1, decide_eq_true h2]
  · have hK0 : K = 0 := by omega
    subst hK0
    simp

/-- The float count floored at 1 is the integer count floored at 1. -/
private theorem max_agree (f : Fin 64 → BitVec 1) :
    max (∑ n, ufloat (f n)) fOne
      = (((IntOp.maxsi ((Finset.univ : Finset (Fin 64)).fold IntOp.addi 0#32 (fun n => (f n).setWidth 32)) 1#32).toInt : ℝ) : EReal) := by
  rw [sum_ufloat, fold_bits, fOne_eq]
  have hK := count_le f
  generalize ∑ n, (f n).toNat = K at hK
  have h1 : (1#32).toInt = 1 := by decide
  have hm : (IntOp.maxsi (BitVec.ofNat 32 K) 1#32).toInt = Max.max (K : ℤ) 1 := by
    unfold IntOp.maxsi
    simp only [BitVec.slt_iff_toInt_lt, toInt_ofNat_small hK, h1]
    split_ifs with h
    · rw [toInt_ofNat_small hK]; omega
    · rw [h1]; omega
  rw [hm, ← EReal.coe_one, ← EReal.coe_strictMono.monotone.map_max]
  congr 1
  push_cast
  rfl

/-- The integer count floored at 1 is at least 1. -/
private theorem maxsi_pos (f : Fin 64 → BitVec 1) :
    (((IntOp.maxsi ((Finset.univ : Finset (Fin 64)).fold IntOp.addi 0#32 (fun n => (f n).setWidth 32)) 1#32).toInt : ℝ)) ≠ 0 := by
  rw [fold_bits]
  have hK := count_le f
  generalize ∑ n, (f n).toNat = K at hK
  have h1 : (1#32).toInt = 1 := by decide
  have hm : (IntOp.maxsi (BitVec.ofNat 32 K) 1#32).toInt = Max.max (K : ℤ) 1 := by
    unfold IntOp.maxsi
    simp only [BitVec.slt_iff_toInt_lt, toInt_ofNat_small hK, h1]
    split_ifs with h
    · rw [toInt_ofNat_small hK]; omega
    · rw [h1]; omega
  rw [hm]
  have : (0 : ℤ) < Max.max (K : ℤ) 1 := by omega
  exact_mod_cast this.ne'

/-- Summing bit-float times x is summing x over the set bits. -/
private theorem so_agree (f : Fin 64 → BitVec 1) (x : Fin 64 → EReal) :
    ∑ n, ufloat (f n) * x n = ∑ n, Scalar.select (f n) (x n) fZero := by
  refine Finset.sum_congr rfl fun n _ => ?_
  rcases bit_cases (f n) with h | h
  · rw [h, ufloat_zero, zero_mul, select_zero, fZero_eq]
  · rw [h, ufloat_one, one_mul, select_one]

/-! ## The indicator of a clipped index -/

/-- For j in [0, 63] the word of column n is j exactly at column pick j. -/
private theorem ofNat_eq_iff {j : BitVec 32} (h0 : 0 ≤ j.toInt) (h63 : j.toInt ≤ 63) (n : Fin 64) :
    BitVec.ofNat 32 n.val = j ↔ n = pick j := by
  have hn := n.isLt
  have hjn : j.toInt = (j.toNat : ℤ) := by
    rw [BitVec.toInt_eq_toNat_cond] at h0 ⊢
    split_ifs at h0 ⊢ with h
    · rfl
    · have := j.isLt; omega
  have hj : j.toNat ≤ 63 := by omega
  constructor
  · intro h
    apply Fin.ext
    have e : (BitVec.ofNat 32 n.val).toNat = j.toNat := by rw [h]
    rw [BitVec.toNat_ofNat] at e
    simp only [pick]
    omega
  · intro h
    apply BitVec.eq_of_toNat_eq
    rw [BitVec.toNat_ofNat, h]
    simp only [pick]
    omega

/-- The indicator of a clipped index is 1 at pick j and 0 elsewhere. -/
private theorem hot_val {j : BitVec 32} (h0 : 0 ≤ j.toInt) (h63 : j.toInt ≤ 63) (n : Fin 64) :
    hot j n = if n = pick j then 1 else 0 := by
  rw [hot_eq]
  by_cases h : n = pick j
  · have e : BitVec.ofNat 32 n.val = j := (ofNat_eq_iff h0 h63 n).2 h
    rw [if_pos h]
    simp [IntOp.cmpi, e]
  · have e : ¬ BitVec.ofNat 32 n.val = j := fun e => h ((ofNat_eq_iff h0 h63 n).1 e)
    have eb : (BitVec.ofNat 32 n.val == j) = false := beq_eq_false_iff_ne.2 e
    rw [if_neg h]
    simp [IntOp.cmpi, eb]

/-- The sum of indicator times cosine is the cosine at pick j. -/
private theorem sum_hot {j : BitVec 32} (h0 : 0 ≤ j.toInt) (h63 : j.toInt ≤ 63) (cs : Fin 64 → EReal) :
    ∑ n, hot j n * cs n = cs (pick j) := by
  rw [Finset.sum_eq_single (pick j)]
  · rw [hot_val h0 h63, if_pos rfl, one_mul]
  · intro n _ hn; rw [hot_val h0 h63, if_neg hn, zero_mul]
  · intro h; exact absurd (Finset.mem_univ _) h

/-- Mask times (1 - indicator) is the float of the bit "masked in and not the target". -/
private theorem nf_eq {j : BitVec 32} (h0 : 0 ≤ j.toInt) (h63 : j.toInt ≤ 63) (mk : Fin 64 → BitVec 1)
    (n : Fin 64) : ufloat (mk n) * (fOne - hot j n) = ufloat (otherBit mk j n) := by
  rw [hot_val h0 h63, fOne_eq]
  unfold otherBit
  by_cases h : n = pick j
  · have e : BitVec.ofNat 32 n.val = j := (ofNat_eq_iff h0 h63 n).2 h
    rw [if_pos h, one_sub_one, mul_zero]
    have : IntOp.andi (mk n) (IntOp.cmpi .ne (BitVec.ofNat 32 n.val) j) = 0#1 := by
      simp [IntOp.andi, IntOp.cmpi, e]
    rw [this, ufloat_zero]
  · have e : ¬ BitVec.ofNat 32 n.val = j := fun e => h ((ofNat_eq_iff h0 h63 n).1 e)
    rw [if_neg h, sub_zero, mul_one]
    have eb : (BitVec.ofNat 32 n.val != j) = true := bne_iff_ne.2 e
    have : IntOp.andi (mk n) (IntOp.cmpi .ne (BitVec.ofNat 32 n.val) j) = mk n := by
      rcases bit_cases (mk n) with hm | hm <;> rw [hm] <;> simp [IntOp.andi, IntOp.cmpi, eb]
    rw [this]

/-! ## The row -/

/-- For real cosines and a clipped index the kernel's row value is the reference's. -/
theorem row_eq (cs : Fin 64 → EReal) (hcs : ∀ n, ∃ r : ℝ, cs n = (r : EReal)) (i : BitVec 32) (mk : Fin 64 → BitVec 1) :
    rowKer cs (clipIdx i) (fun n => ufloat (mk n)) = rowRef cs (clipIdx i) mk := by
  obtain ⟨h0, h63⟩ := clipIdx_range i
  unfold rowKer rowRef
  simp only [sum_hot h0 h63, nf_eq h0 h63, cond_agree, max_agree, so_agree]

/-- For real cosines the reference's row value is a real number. -/
theorem rowRef_real (cs : Fin 64 → EReal) (hcs : ∀ n, ∃ r : ℝ, cs n = (r : EReal)) (j : BitVec 32) (mk : Fin 64 → BitVec 1) :
    ∃ r : ℝ, rowRef cs j mk = (r : EReal) := by
  have hc : ∀ n, IsReal (cs n) := hcs
  have h1 : IsReal fOne := fOne_eq ▸ isReal_one
  have hz : IsReal fZero := fZero_eq ▸ isReal_zero
  unfold rowRef
  refine IsReal.add (wTarget_real.mul (((hc _).add h1).max hz)) (wOthers_real.mul (IsReal.select _ ?_ hz))
  refine IsReal.div_coe (IsReal.sum _ _ fun n _ => IsReal.select _ (h1.sub (hc n)) hz) ?_
  exact maxsi_pos (fun n => otherBit mk j n)

end Cert.Algebra

end
-- ==== Proof.AlgebraFinal.lean ====
/-
  The mean over valid rows is the same either way, when the per-row values are real.

  Spreading a block's real sum g over 8 * 128 cells at 2^-10 each and summing the cells gives g back, since
  1024 * 2^-10 = 1; so the kernel's total is the sum over all 1024 rows of value times validity-as-float, which
  selects the value on valid rows and 0 elsewhere, and its count is the real number of valid rows. The integer
  count holds the same number (at most 1024, no wrap). Both fallbacks are a product with 0, which is 0 on the
  extended reals whatever the other factor.
-/
import proofs.«417486_j44770739094063_3_alg».proof.Proof.Spec
import Mathlib.Data.EReal.Basic
import Mathlib.Data.Fintype.BigOperators
import Mathlib.Algebra.BigOperators.Group.Finset.Defs
import Mathlib.Algebra.Order.BigOperators.Group.Finset
import Mathlib.Data.Finset.Fold
import Mathlib.Logic.Equiv.Fin.Basic
import Mathlib.Tactic.Ring
import Mathlib.Tactic.NormNum

noncomputable section

open scoped BigOperators

namespace Cert.Algebra

open Idealize.ShloMosaic Cert.Spec

/-! ## The constants -/

/-- The word 0x3F800000 is 1. -/
private theorem fOne_eq : fOne = 1 := by
  simp [fOne, Ideal.ofBits, Ideal.ieee]
  rw [← EReal.coe_mul, ← EReal.coe_one]
  congr 1
  norm_num

/-- The word 0x00000000 is 0. -/
private theorem fZero_eq : fZero = 0 := Ideal.ofBits_zero_f32

/-- The word 0x3A800000 is 2^-10 = 1 / 1024. -/
private theorem packScale_eq : packScale = ((1 / 1024 : ℝ) : EReal) := by
  simp [packScale, Ideal.ofBits, Ideal.ieee]
  rw [← EReal.coe_mul]
  congr 1
  norm_num

/-! ## Sums -/

/-- The coercion of a finite real sum is the sum of the coercions. -/
private theorem coe_sum {ι : Type} (T : Finset ι) (f : ι → ℝ) :
    ((∑ b ∈ T, f b : ℝ) : EReal) = ∑ b ∈ T, (f b : EReal) := by
  classical
  induction T using Finset.induction_on with
  | empty => simp
  | insert a T ha ih => rw [Finset.sum_insert ha, Finset.sum_insert ha, EReal.coe_add, ih]

/-- Summing over the 16 blocks and the 64 rows of each block is summing over all 1024 rows: (t, p) ↦ 64 t + p is a
    bijection. -/
private theorem sum_rowOf {M : Type} [AddCommMonoid M] (f : Fin 1024 → M) :
    ∑ t : Fin 16, ∑ p : Fin 64, f (rowOf t p) = ∑ b : Fin 1024, f b := by
  rw [← Fintype.sum_prod_type']
  refine Fintype.sum_equiv (finProdFinEquiv (m := 16) (n := 64)) _ _ (fun x => ?_)
  congr 1
  ext
  simp [rowOf, finProdFinEquiv]
  ring

/-- Spreading real block sums over the cells and re-summing gives the sum over the blocks. -/
theorem spread_eq (g : Fin 16 → EReal) (hg : ∀ t, ∃ r : ℝ, g t = (r : EReal)) : spread g = ∑ t, g t := by
  choose r hr using hg
  unfold spread
  refine Finset.sum_congr rfl fun t _ => ?_
  rw [hr t, packScale_eq, ← EReal.coe_mul]
  simp only [Finset.sum_const, Finset.card_univ, Fintype.card_fin]
  rw [← EReal.coe_nsmul, ← EReal.coe_nsmul]
  congr 1
  simp only [nsmul_eq_mul]
  push_cast
  ring

/-! ## One-bit words as floats -/

/-- A one-bit word as a float is 1 when the bit is set and 0 otherwise. -/
private theorem ufloat_eq (b : BitVec 1) : ufloat b = if b = 1#1 then 1 else 0 := by
  have h : b = 0#1 ∨ b = 1#1 := by revert b; decide
  rcases h with h | h <;> subst h
  · show (((0#1 : BitVec 1).toNat : ℝ) : EReal) = _
    simp
  · show (((1#1 : BitVec 1).toNat : ℝ) : EReal) = _
    simp

/-- Multiplying by a bit's float selects the value when the bit is set and 0 otherwise. -/
private theorem mul_ufloat (x : EReal) (b : BitVec 1) : x * ufloat b = Scalar.select b x fZero := by
  have h : b = 0#1 ∨ b = 1#1 := by revert b; decide
  rcases h with h | h <;> subst h <;> simp [ufloat_eq, Scalar.select, fZero_eq]

/-! ## The integer count -/

/-- Adding 32-bit words up from 0 gives the word of the sum of their values. -/
private theorem fold_addi {ι : Type} [DecidableEq ι] (T : Finset ι) (f : ι → BitVec 32) :
    T.fold IntOp.addi 0#32 f = BitVec.ofNat 32 (∑ b ∈ T, (f b).toNat) := by
  induction T using Finset.induction_on with
  | empty => simp
  | insert a T ha ih =>
    rw [Finset.fold_insert ha, Finset.sum_insert ha, ih]
    apply BitVec.eq_of_toNat_eq
    simp [IntOp.addi, BitVec.toNat_add, BitVec.toNat_ofNat]

/-- A number up to 1024 read back from its 32-bit word as a signed integer is itself. -/
private theorem toInt_ofNat_small (N : ℕ) (h : N ≤ 1024) : (BitVec.ofNat 32 N).toInt = (N : ℤ) := by
  simp only [BitVec.toInt, BitVec.toNat_ofNat]
  omega

/-- With the same total T and the same count N ≤ 1024, held as a float on one side and as a 32-bit word on the
    other, the two guarded divisions agree: for N = 0 both fall back to a product with 0, and for N ≥ 1 both divide
    T by N. -/
private theorem tail_eq (N : ℕ) (hN : N ≤ 1024) (T x y : EReal) :
    Scalar.select (Ideal.cmp .ogt ((N : ℝ) : EReal) fZero) (Ideal.div T (max ((N : ℝ) : EReal) fOne)) (x * fZero)
      = Scalar.select (IntOp.cmpi .sgt (BitVec.ofNat 32 N) 0#32)
          (Ideal.div T (((IntOp.maxsi (BitVec.ofNat 32 N) 1#32).toInt : ℝ) : EReal)) (y * fZero) := by
  rw [fZero_eq, fOne_eq]
  rcases Nat.eq_zero_or_pos N with h0 | hpos
  · subst h0
    simp [Ideal.cmp, Scalar.select, IntOp.cmpi]
  · have hc : Ideal.cmp .ogt ((N : ℝ) : EReal) 0 = 1#1 := by
      have : (0 : EReal) < ((N : ℝ) : EReal) := by
        rw [← EReal.coe_zero, EReal.coe_lt_coe_iff]
        exact_mod_cast hpos
      show BitVec.ofBool (decide ((0 : EReal) < ((N : ℝ) : EReal))) = 1#1
      rw [decide_eq_true this]
      rfl
    have hs : IntOp.cmpi .sgt (BitVec.ofNat 32 N) 0#32 = 1#1 := by
      have : (0#32).slt (BitVec.ofNat 32 N) = true := by
        rw [BitVec.slt, toInt_ofNat_small N hN]
        simp
        omega
      simp [IntOp.cmpi, this]
    have hm : (IntOp.maxsi (BitVec.ofNat 32 N) 1#32).toInt = (N : ℤ) := by
      unfold IntOp.maxsi
      split
      · exact toInt_ofNat_small N hN
      · rename_i h
        rw [BitVec.slt, toInt_ofNat_small N hN] at h
        simp at h
        have : N = 1 := by omega
        subst this
        rfl
    have hx : max ((N : ℝ) : EReal) 1 = ((N : ℝ) : EReal) := by
      apply max_eq_left
      rw [← EReal.coe_one, EReal.coe_le_coe_iff]
      exact_mod_cast hpos
    rw [hc, hs, hm, hx]
    simp [Scalar.select]

/-! ## The whole -/

/-- For real per-row values the kernel's result is the reference's. -/
theorem final_eq (ps : Fin 1024 → EReal) (hps : ∀ b, ∃ r : ℝ, ps b = (r : EReal)) (i : Fin 1024 → BitVec 32)
    (e : Fin 16 → EReal) (sumA : EReal) :
    finalKer ps (fun b => ufloat (validBit (i b))) e = finalRef ps i sumA := by
  choose r hr using hps
  have hu : ∀ b, ufloat (validBit (i b)) = ((((validBit (i b)).toNat : ℝ)) : EReal) := fun _ => rfl
  -- the number of valid rows is at most 1024
  have hNle : (∑ b : Fin 1024, (validBit (i b)).toNat) ≤ 1024 := by
    calc (∑ b : Fin 1024, (validBit (i b)).toNat) ≤ ∑ _b : Fin 1024, 1 :=
          Finset.sum_le_sum fun b _ => by have := (validBit (i b)).isLt; omega
      _ = 1024 := by simp
  -- the kernel's total is the reference's total
  have htot : (spread fun t => ∑ p : Fin 64, ps (rowOf t p) * ufloat (validBit (i (rowOf t p))))
      = ∑ b, Scalar.select (validBit (i b)) (ps b) fZero := by
    rw [spread_eq]
    · rw [sum_rowOf (fun b => ps b * ufloat (validBit (i b)))]
      exact Finset.sum_congr rfl fun b _ => mul_ufloat _ _
    · intro t
      refine ⟨∑ p : Fin 64, r (rowOf t p) * ((validBit (i (rowOf t p))).toNat : ℝ), ?_⟩
      rw [coe_sum]
      exact Finset.sum_congr rfl fun p _ => by rw [hr, hu, EReal.coe_mul]
  -- the kernel's count is the number of valid rows, as a real
  have hcnt : (spread fun t => ∑ p : Fin 64, ufloat (validBit (i (rowOf t p))))
      = (((∑ b : Fin 1024, (validBit (i b)).toNat : ℕ) : ℝ) : EReal) := by
    rw [spread_eq]
    · rw [sum_rowOf (fun b => ufloat (validBit (i b))), Nat.cast_sum, coe_sum]
      exact Finset.sum_congr rfl fun b _ => hu b
    · intro t
      refine ⟨∑ p : Fin 64, ((validBit (i (rowOf t p))).toNat : ℝ), ?_⟩
      rw [coe_sum]
      exact Finset.sum_congr rfl fun p _ => hu _
  -- the reference's count is the word of the same number
  have hnv : (Finset.univ : Finset (Fin 1024)).fold IntOp.addi 0#32 (fun b => (validBit (i b)).setWidth 32)
      = BitVec.ofNat 32 (∑ b : Fin 1024, (validBit (i b)).toNat) := by
    rw [fold_addi]
    refine congrArg (BitVec.ofNat 32) (Finset.sum_congr rfl fun b _ => ?_)
    rw [BitVec.toNat_setWidth]
    have := (validBit (i b)).isLt
    omega
  unfold finalKer finalRef
  simp only []
  rw [htot, hcnt, hnv]
  exact tail_eq _ hNle _ _ _

end Cert.Algebra

end
-- ==== Proof.Result.lean ====
/-
  The two programs' results are one function of finite argument arrays: entry by entry the cosines agree, row by
  row the per-row values agree and are real, and the two ways of averaging over valid rows agree.
-/
import proofs.«417486_j44770739094063_3_alg».proof.Proof.Spec
import proofs.«417486_j44770739094063_3_alg».proof.Proof.AlgebraCos
import proofs.«417486_j44770739094063_3_alg».proof.Proof.AlgebraRow
import proofs.«417486_j44770739094063_3_alg».proof.Proof.AlgebraFinal

noncomputable section

open scoped BigOperators

namespace Cert.Algebra

open Idealize.ShloMosaic Idealize.ShloMosaic.ValueIdx Cert.Spec

/-- For argument arrays of real numbers the kernel's result is the reference's. -/
theorem result_eq (A C : ShA.Idx → EReal) (hA : ∀ i, ∃ r : ℝ, A i = (r : EReal)) (hC : ∀ i, ∃ r : ℝ, C i = (r : EReal))
    (idx : ShI.Idx → BitVec 32) (mask : ShM.Idx → BitVec 1) :
    resultKer A C idx mask = resultRef A C idx mask := by
  have hcos : ∀ b n, cosKer (fun d => A (ix3 b n d)) (fun d => C (ix3 b n d))
      = cosRef (fun d => A (ix3 b n d)) (fun d => C (ix3 b n d)) :=
    fun b n => cos_eq _ _ (fun d => hA _) (fun d => hC _)
  have hreal : ∀ b n, ∃ r : ℝ, cosRef (fun d => A (ix3 b n d)) (fun d => C (ix3 b n d)) = (r : EReal) :=
    fun b n => cosRef_real _ _ (fun d => hA _) (fun d => hC _)
  unfold resultKer resultRef
  simp only [hcos]
  have hrow : ∀ b : Fin 1024,
      rowKer (fun n => cosRef (fun d => A (ix3 b n d)) (fun d => C (ix3 b n d))) (clipIdx (idx (ix1 b)))
          (fun n => ufloat (mask (ix2 b n)))
        = rowRef (fun n => cosRef (fun d => A (ix3 b n d)) (fun d => C (ix3 b n d))) (clipIdx (idx (ix1 b)))
          (fun n => mask (ix2 b n)) :=
    fun b => row_eq _ (hreal b) _ _
  simp only [hrow]
  exact final_eq _ (fun b => rowRef_real _ (hreal b) _ _) _ _ _

end Cert.Algebra

end
-- ==== Proof.Finite.lean ====
/-
  Under the precondition every entry of the two embeddings is a real number.

  The precondition says: all entries x of the first embedding satisfy |x| < +inf, and all entries of the second do.
  An "all" over an array is the conjunction over its entries, so each entry's comparison bit is 1; an extended real
  whose absolute value, max x (-x), lies strictly below the top element is neither the top nor the bottom element,
  hence is the coercion of a real.
-/
import proofs.«417486_j44770739094063_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

/-- The single-precision word 0x7F800000 is the top element. -/
private theorem ofBits_inf : Ideal.ofBits .f32 0x7F800000#32 = ⊤ := by
  simp [Ideal.ofBits, Ideal.ieee]

/-- An extended real whose absolute value lies strictly below the top element is a real number. -/
private theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- The shape of rank zero has one index. -/
private instance : Subsingleton Cert.Pre_finite_inputs.S_.Idx := ⟨fun _ _ => funext fun d => d.elim0⟩

/-- Where the printed precondition is all ones, both float arguments hold real numbers at every index. -/
theorem real_of_pre [Cert.Pre_finite_inputs.Facts]
    (x0 x1 : FVec Ideal Cert.Pre_finite_inputs.S1024x64x256 .f32) (x2 : IVec Cert.Pre_finite_inputs.S1024 32)
    (x3 : IVec Cert.Pre_finite_inputs.S1024x64 1)
    (h : Cert.Pre_finite_inputs.fn (F := Ideal) x0 x1 x2 x3 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨fun i => real_of_abs_lt (x0 i) (Host.reduce_andi_all _ _ _ _ _ ha i),
    fun i => real_of_abs_lt (x1 i) (Host.reduce_andi_all _ _ _ _ _ hb i)⟩

end Cert.Finite

end
-- ==== Proof.KernelBlock.lean ====
/-
  What one grid point writes into each of its three output blocks, cell by cell, on the extended reals.

  A point holds 64 batch rows: the blocks x0, x1 of the two embeddings [64, 64, 256], the column x2 of clipped agent
  indices [64, 1], the column x3 of the rows' validity as floats [64, 1], and the block x4 of the float mask [64, 64].
  Every cell of the first output block holds the sum over the 64 rows of (row value times validity), times 2^-10;
  every cell of the second the sum of the validities times 2^-10; every cell of the third the sum of all entries of
  x0 times 2^-10. The row value is the kernel's: cosines by reciprocal square roots, the target picked by an
  indicator, the others counted in floats.
-/
import proofs.«417486_j44770739094063_3_alg».proof.Proof.Gen.KernelIdeal.Frame
import proofs.«417486_j44770739094063_3_alg».proof.Proof.Spec
import proofs.«417486_j44770739094063_3_alg».proof.Proof.LibBatch
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Mathlib.Algebra.BigOperators.Group.Finset.Basic

noncomputable section

open scoped BigOperators

namespace Cert.KernelIdeal.BlockValue

open Idealize.ShloMosaic Idealize.ShloMosaic.ValueIdx Cert.KernelIdeal Cert.KernelIdeal.Gen Cert.Spec

/-- The kernel's value of row p of a point, from the point's blocks. -/
def blockRow (x0 x1 : Vec Ideal S64x64x256 .f32) (x2 : Vec Ideal S64x1 .i32) (x4 : Vec Ideal S64x64 .f32) (p : Fin 64) : EReal :=
  rowKer (fun n => cosKer (fun d => x0 (ix3 p n d)) (fun d => x1 (ix3 p n d))) (x2 (ix2 p (0 : Fin 1)))
    (fun n => x4 (ix2 p n))

/-! ## Layout operations read at an index -/

section Layout
variable {α : Type}

/-- The sum over axis 0 of an [a, b] array reads, at q, the sum over k of the array at (k, q). -/
private theorem multiReduction_add_first2 {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) := by
  rw [Ideal.multiReduction_add_single]
  refine Finset.sum_congr rfl fun k _ => congrArg src (funext fun e => Fin.ext ?_)
  match e with
  | ⟨0, _⟩ => rfl
  | ⟨1, _⟩ => rfl

/-- A [1, 1] array broadcast to [a, b] reads, at every cell, its one element. -/
private theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

/-- The column counter of a [64, 64] array reads, at (p, n), the word of n. -/
private theorem iota_col_apply (p n : Fin 64) :
    iota .tc S64x64 32 [1] iota_S64x64_d1_w32 (ix2 p n) = BitVec.ofNat 32 n.val :=
  Idealize.ShloMosaic.iota_single_apply .tc S64x64 32 1 iota_S64x64_d1_w32 (ix2 p n)

end Layout

section Pointwise
variable {s : Shape} {φ : FTy}

/-- The reciprocal square root of an array reads, at an index, the reciprocal square root of the entry there. -/
private theorem rsqrt_apply (v : FVec Ideal s φ) (i : s.Idx) : rsqrt v i = Ideal.rsqrt (v i) := rfl

/-- The comparison of two integer arrays reads, at an index, the comparison of the entries there. -/
private theorem cmpi_apply {w : ℕ} (p : CmpIPredicate) (a b : IVec s w) (i : s.Idx) :
    cmpi p a b i = IntOp.cmpi p (a i) (b i) := rfl

end Pointwise

/-- The named floor under a squared norm is the value its table gives it: 11258999^2 / 2^100. -/
private theorem named_eps :
    Named.named (F := Ideal) Cert.KernelIdeal.κ "eps_sq" (φ := .f32) 0x24E69595#32 = sqFloor :=
  IdealRules.named_const.ideal_named_scalar _ _ _ _ rfl

/-- Three zero offsets. -/
private theorem hz3 : (![0, 0, 0] : Fin 3 → Nat) = fun _ => 0 :=
  funext fun a => match a with
    | ⟨0, _⟩ => rfl
    | ⟨1, _⟩ => rfl
    | ⟨2, _⟩ => rfl

/-- Two zero offsets. -/
private theorem hz2 : (![0, 0] : Fin 2 → Nat) = fun _ => 0 :=
  funext fun a => match a with
    | ⟨0, _⟩ => rfl
    | ⟨1, _⟩ => rfl

/-! ## The values the body computes, read at an index -/

/-- The validity column recast to its own shape is itself. -/
private theorem pay9_eq (v : Vec Ideal S64x1 .f32) : k0_pay9 v = v := by
  unfold k0_pay9
  exact shapeCast_self _ _

/-- Every cell of the [8, 128] spread of the validity column: the column's sum times 2^-10. -/
private theorem pay12_apply (v : Vec Ideal S64x1 .f32) (r : Fin 8) (l : Fin 128) :
    k0_pay12 v (ix2 r l) = (∑ p : Fin 64, v (ix2 p (0 : Fin 1))) * packScale := by
  unfold k0_pay12
  rw [pay9_eq]
  refine (mulf_apply _ _ _).trans ?_
  refine congrArg₂ (· * ·) ?_ rfl
  refine (broadcastTo_11_ab_apply _ _ r l).trans ?_
  rw [shapeCast_self]
  refine (Cert.LibBatch.shapeCast_a_a1_apply _ _ (0 : Fin 1) (0 : Fin 1)).trans ?_
  exact multiReduction_add_first2 _ _ _ _ _ (0 : Fin 1)

/-- An [8, 128] array given a leading unit axis reads, at (u, r, l), the array at (r, l). -/
private theorem pay1_apply (v : FVec Ideal S8x128 .f32) (u : Fin 1) (r : Fin 8) (l : Fin 128) :
    k0_pay1 v (ix3 u r l) = v (ix2 r l) := by
  unfold k0_pay1
  exact shapeCast_ab_1ab_apply _ _ u r l

/-- The sum of a [64, 64, 256] block over its last axis, then its middle axis, then its first: the sum of all its
    entries. -/
private theorem pay10_apply (v0 : Vec Ideal S64x64x256 .f32) :
    k0_pay10 v0 (ix2 (0 : Fin 1) (0 : Fin 1)) = ∑ p : Fin 64, ∑ n : Fin 64, ∑ d : Fin 256, v0 (ix3 p n d) := by
  unfold k0_pay10
  refine (Cert.LibBatch.shapeCast_a_a1_apply _ _ (0 : Fin 1) (0 : Fin 1)).trans ?_
  refine (multiReduction_add_first2 _ _ _ _ _ (0 : Fin 1)).trans ?_
  refine Finset.sum_congr rfl fun p _ => ?_
  refine (Cert.LibBatch.shapeCast_a_a1_apply _ _ p (0 : Fin 1)).trans ?_
  refine (Cert.LibBatch.multiReduction_add_last2 _ _ _ _ _ p).trans ?_
  refine Finset.sum_congr rfl fun n _ => ?_
  exact Cert.LibBatch.multiReduction_add_last3 _ _ _ _ _ p n

/-- Every cell of the [1, 8, 128] spread of a single value: the value times 2^-10. -/
private theorem pay2_apply (v : FVec Ideal S1x1 .f32) (u : Fin 1) (r : Fin 8) (l : Fin 128) :
    k0_pay2 v (ix3 u r l) = v (ix2 (0 : Fin 1) (0 : Fin 1)) * packScale := by
  unfold k0_pay2
  refine (shapeCast_ab_1ab_apply _ _ u r l).trans ?_
  refine (mulf_apply _ _ _).trans ?_
  refine congrArg₂ (· * ·) ?_ rfl
  refine (broadcastTo_11_ab_apply _ _ r l).trans ?_
  rw [shapeCast_self]

/-- Entry (p, n) of the cosine block: the kernel's cosine of rows (p, n) of the two embeddings. -/
private theorem pay3_apply (v0 v1 : Vec Ideal S64x64x256 .f32) (p n : Fin 64) :
    k0_pay3 (F := Ideal) v0 v1 (ix2 p n) = cosKer (fun d => v0 (ix3 p n d)) (fun d => v1 (ix3 p n d)) := by
  unfold k0_pay3 cosKer dot
  refine (mulf_apply _ _ _).trans ?_
  refine congrArg₂ (· * ·) ?_ ?_
  · refine (mulf_apply _ _ _).trans ?_
    refine congrArg₂ (· * ·) ?_ ?_
    · exact Cert.LibBatch.multiReduction_add_last3 _ _ _ _ _ p n
    · refine (rsqrt_apply _ _).trans ?_
      refine congrArg Ideal.rsqrt ?_
      refine (maximumf_apply _ _ _).trans ?_
      refine congrArg₂ max ?_ ((broadcast_apply _ _).trans named_eps)
      exact Cert.LibBatch.multiReduction_add_last3 _ _ _ _ _ p n
  · refine (rsqrt_apply _ _).trans ?_
    refine congrArg Ideal.rsqrt ?_
    refine (maximumf_apply _ _ _).trans ?_
    refine congrArg₂ max ?_ ((broadcast_apply _ _).trans named_eps)
    exact Cert.LibBatch.multiReduction_add_last3 _ _ _ _ _ p n

/-- Entry (p, n) of the target indicator: 1 where n is row p's index word, 0 elsewhere. -/
private theorem pay4_apply (v16 : Vec Ideal S64x1 .i32) (p n : Fin 64) :
    k0_pay4 (F := Ideal) v16 (ix2 p n) = hot (v16 (ix2 p (0 : Fin 1))) n := by
  unfold k0_pay4 hot
  refine (sitofp_apply _ _).trans ?_
  refine congrArg (fun w => FloatOps.sitofp (F := Ideal) FTy.f32 w) ?_
  refine (extui_apply _ _ _).trans ?_
  refine congrArg (fun w => BitVec.setWidth 32 w) ?_
  refine (cmpi_apply _ _ _ _).trans ?_
  refine congrArg₂ (IntOp.cmpi CmpIPredicate.eq) (iota_col_apply p n) ?_
  refine (Cert.LibBatch.broadcastTo_a1_ab_apply _ _ p n).trans ?_
  rw [shapeCast_self]

/-- Entry (p, n) of the others' mask: the float mask times one minus the target indicator. -/
private theorem pay5_apply (v16 : Vec Ideal S64x1 .i32) (v23 : Vec Ideal S64x64 .f32) (p n : Fin 64) :
    k0_pay5 v16 v23 (ix2 p n) = v23 (ix2 p n) * (fOne - hot (v16 (ix2 p (0 : Fin 1))) n) := by
  unfold k0_pay5
  refine (mulf_apply _ _ _).trans ?_
  refine congrArg₂ (· * ·) ?_ ?_
  · rw [shapeCast_self]
  · refine (subf_apply _ _ _).trans ?_
    exact congrArg₂ (· - ·) rfl (pay4_apply v16 p n)

/-- Row p of the others' count: the others' mask summed over the agents. -/
private theorem pay7_apply (v16 : Vec Ideal S64x1 .i32) (v23 : Vec Ideal S64x64 .f32) (p : Fin 64) (u : Fin 1) :
    k0_pay7 v16 v23 (ix2 p u) = ∑ n : Fin 64, v23 (ix2 p n) * (fOne - hot (v16 (ix2 p (0 : Fin 1))) n) := by
  unfold k0_pay7
  refine (Cert.LibBatch.shapeCast_a_a1_apply _ _ p u).trans ?_
  refine (Cert.LibBatch.multiReduction_add_last2 _ _ _ _ _ p).trans ?_
  exact Finset.sum_congr rfl fun n _ => pay5_apply v16 v23 p n

/-- Row p of the target term: the cosine picked by the indicator, plus one, floored at zero. -/
private theorem pay6_apply (v0 v1 : Vec Ideal S64x64x256 .f32) (v16 : Vec Ideal S64x1 .i32) (p : Fin 64) (u : Fin 1) :
    k0_pay6 (F := Ideal) v0 v1 v16 (ix2 p u)
      = max ((∑ n : Fin 64, hot (v16 (ix2 p (0 : Fin 1))) n
          * cosKer (fun d => v0 (ix3 p n d)) (fun d => v1 (ix3 p n d))) + fOne) fZero := by
  unfold k0_pay6
  refine (maximumf_apply _ _ _).trans ?_
  refine congrArg₂ max ?_ rfl
  refine (addf_apply _ _ _).trans ?_
  refine congrArg₂ (· + ·) ?_ rfl
  refine (Cert.LibBatch.shapeCast_a_a1_apply _ _ p u).trans ?_
  refine (Cert.LibBatch.multiReduction_add_last2 _ _ _ _ _ p).trans ?_
  refine Finset.sum_congr rfl fun n _ => ?_
  refine (mulf_apply _ _ _).trans ?_
  exact congrArg₂ (· * ·) (pay4_apply v16 p n) (pay3_apply v0 v1 p n)

/-- Every entry of the block of ones is one. -/
private theorem pay8_apply (i : S64x64.Idx) : k0_pay8 (F := Ideal) i = fOne := rfl

/-- Every cell of the first output block, from the cosine block v15, the others' mask v27, the target term v34, the
    others' count v36, the block of ones v37 and the validity column v54: the sum over the rows of (the weighted
    target term plus the weighted mean over the others, where there are any) times validity, times 2^-10. -/
private theorem pay11_apply (v15 v27 : FVec Ideal S64x64 .f32) (v34 v36 : FVec Ideal S64x1 .f32)
    (v37 : FVec Ideal S64x64 .f32) (v54 : Vec Ideal S64x1 .f32) (u : Fin 1) (r : Fin 8) (l : Fin 128) :
    k0_pay11 v15 v27 v34 v36 v37 v54 (ix3 u r l)
      = (∑ p : Fin 64, (wTarget * v34 (ix2 p (0 : Fin 1))
          + wOthers * Scalar.select (Ideal.cmp .ogt (v36 (ix2 p (0 : Fin 1))) fZero)
              (Ideal.div (∑ n : Fin 64, v27 (ix2 p n) * (v37 (ix2 p n) - v15 (ix2 p n)))
                (max (v36 (ix2 p (0 : Fin 1))) fOne)) fZero)
          * v54 (ix2 p (0 : Fin 1))) * packScale := by
  unfold k0_pay11
  rw [pay9_eq]
  refine (shapeCast_ab_1ab_apply _ _ u r l).trans ?_
  refine (mulf_apply _ _ _).trans ?_
  refine congrArg₂ (· * ·) ?_ rfl
  refine (broadcastTo_11_ab_apply _ _ r l).trans ?_
  rw [shapeCast_self]
  refine (Cert.LibBatch.shapeCast_a_a1_apply _ _ (0 : Fin 1) (0 : Fin 1)).trans ?_
  refine (multiReduction_add_first2 _ _ _ _ _ (0 : Fin 1)).trans ?_
  refine Finset.sum_congr rfl fun p _ => ?_
  refine (mulf_apply _ _ _).trans ?_
  refine congrArg₂ (· * ·) ?_ rfl
  refine (addf_apply _ _ _).trans ?_
  refine congrArg₂ (· + ·) rfl ?_
  refine (mulf_apply _ _ _).trans ?_
  refine congrArg₂ (· * ·) rfl ?_
  refine (select_apply _ _ _ _).trans ?_
  refine congrArg₂ (fun a b => Scalar.select a b fZero) rfl ?_
  refine (divf_apply _ _ _).trans ?_
  refine congrArg₂ Ideal.div ?_ rfl
  refine (Cert.LibBatch.shapeCast_a_a1_apply _ _ p (0 : Fin 1)).trans ?_
  exact Cert.LibBatch.multiReduction_add_last2 _ _ _ _ _ p

/-! ## The three output blocks -/

/-- Every cell of the first output block: the rows' values weighted by validity, summed, times 2^-10. -/
theorem out0_5_apply (x0 x1 : Vec Ideal S64x64x256 .f32) (x2 : Vec Ideal S64x1 .i32) (x3 : Vec Ideal S64x1 .f32)
    (x4 : Vec Ideal S64x64 .f32) (u : Fin 1) (r : Fin 8) (l : Fin 128) :
    out0_5 (F := Ideal) x0 x1 x2 x3 x4 (ix3 u r l)
      = (∑ p : Fin 64, blockRow x0 x1 x2 x4 p * x3 (ix2 p (0 : Fin 1))) * packScale := by
  unfold out0_5
  rw [View.canon_unit_zero hz3]
  simp only [View.ld_unit_zero (S := S64x64x256) hz3, View.ld_unit_zero (S := S64x1) hz2,
    View.ld_unit_zero (S := S64x64) hz2]
  rw [pay11_apply]
  refine congrArg₂ (· * ·) ?_ rfl
  refine Finset.sum_congr rfl fun p _ => ?_
  refine congrArg₂ (· * ·) ?_ rfl
  unfold blockRow rowKer
  simp only [pay6_apply, pay7_apply, pay5_apply, pay3_apply, pay8_apply]

/-- Every cell of the second output block: the validities summed, times 2^-10. -/
theorem out0_6_apply (x0 x1 : Vec Ideal S64x64x256 .f32) (x2 : Vec Ideal S64x1 .i32) (x3 : Vec Ideal S64x1 .f32)
    (x4 : Vec Ideal S64x64 .f32) (u : Fin 1) (r : Fin 8) (l : Fin 128) :
    out0_6 (F := Ideal) x0 x1 x2 x3 x4 (ix3 u r l) = (∑ p : Fin 64, x3 (ix2 p (0 : Fin 1))) * packScale := by
  unfold out0_6
  rw [View.canon_unit_zero hz3]
  simp only [View.ld_unit_zero (S := S64x1) hz2]
  rw [pay1_apply, pay12_apply]

/-- Every cell of the third output block: all entries of the first embedding's block summed, times 2^-10. -/
theorem out0_7_apply (x0 x1 : Vec Ideal S64x64x256 .f32) (x2 : Vec Ideal S64x1 .i32) (x3 : Vec Ideal S64x1 .f32)
    (x4 : Vec Ideal S64x64 .f32) (u : Fin 1) (r : Fin 8) (l : Fin 128) :
    out0_7 (F := Ideal) x0 x1 x2 x3 x4 (ix3 u r l)
      = (∑ p : Fin 64, ∑ n : Fin 64, ∑ d : Fin 256, x0 (ix3 p n d)) * packScale := by
  unfold out0_7
  rw [View.canon_unit_zero hz3]
  simp only [View.ld_unit_zero (S := S64x64x256) hz3]
  rw [pay2_apply, pay10_apply]

end Cert.KernelIdeal.BlockValue

end
-- ==== Proof.KernelWindows.lean ====
/-
  What the host operations before the region leave in the three arrays they write, index by index.

  The index column [1024, 1] holds, at row b, the index word of row b clipped into [0, 63]; the validity column
  [1024, 1] holds the float of the bit "row b's index word lies in [0, 64)"; the float mask [1024, 64] holds the
  float of each mask bit. The two embeddings reach the region as launched.
-/
import proofs.«417486_j44770739094063_3_alg».proof.Proof.Gen.KernelIdeal.Frame
import proofs.«417486_j44770739094063_3_alg».proof.Proof.Spec
import proofs.«417486_j44770739094063_3_alg».proof.Proof.LibBatch
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Windows

open Idealize.ShloMosaic Idealize.ShloMosaic.ValueIdx Idealize.ShloMosaic.TcCoe Idealize.SL.Sem
open Cert.KernelIdeal Cert.KernelIdeal.Gen Cert.Spec

variable (m : (ℓ : Loc nD τ sig) → Buf (Elt Ideal) ℓ)

/-- The index column at row b: the row's index word clipped. -/
theorem win_idx (c : Dev nD) (b : Fin 1024) :
    (V m c main_v6 : S1024x1.Idx → BitVec 32) (ix2 b (0 : Fin 1))
      = clipIdx ((m ((c : Thread nD τ).loc main_arg2) : S1024.Idx → BitVec 32) (ix1 b)) := by
  -- the column as the operations' composed term: the clip of the index words, reshaped to a column
  have e : (V m c main_v6 : S1024x1.Idx → BitVec 32)
      = shapeCast S1024x1
          (minsi (broadcastInDim S1024 ![] bcast_S_S1024 (id (constantI S_ 32 63#32)))
            (maxsi (broadcastInDim S1024 ![] bcast_S_S1024 (id (constantI S_ 32 0#32)))
              (m ((c : Thread nD τ).loc main_arg2))))
          shapeCasts_S1024_S1024x1 := by
    dsimp only [Gen.V, Gen.V0]
    simp only [Gen.hostOps0, Gen.hostOps0_1, Gen.hostOps0_2, List.flatten_cons, List.flatten_nil, List.append_nil,
      List.cons_append, List.nil_append]
    after_results; rfl
  -- a column's entry (b, 0) is the vector's entry b; there min, max, the broadcasts and the constants read pointwise
  rw [e, Cert.LibBatch.shapeCast_a_a1_apply]
  rfl

/-- The validity column at row b: the float of the row's validity bit. -/
theorem win_valid (c : Dev nD) (b : Fin 1024) :
    (V m c main_v8 : S1024x1.Idx → EReal) (ix2 b (0 : Fin 1))
      = ufloat (validBit ((m ((c : Thread nD τ).loc main_arg2) : S1024.Idx → BitVec 32) (ix1 b))) := by
  -- the column as the operations' composed term: the float of (index ≥ 0 and index < 64), reshaped to a column
  have e : (V m c main_v8 : S1024x1.Idx → EReal)
      = shapeCast S1024x1
          (uitofp (F := Ideal) .f32
            (andi
              (cmpi .sge (m ((c : Thread nD τ).loc main_arg2)) (broadcastInDim S1024 ![] bcast_S_S1024 (constantI S_ 32 0#32)))
              (cmpi .slt (m ((c : Thread nD τ).loc main_arg2)) (broadcastInDim S1024 ![] bcast_S_S1024 (constantI S_ 32 64#32)))))
          shapeCasts_S1024_S1024x1 := by
    dsimp only [Gen.V, Gen.V0]
    simp only [Gen.hostOps0, Gen.hostOps0_1, Gen.hostOps0_2, List.flatten_cons, List.flatten_nil, List.append_nil,
      List.cons_append, List.nil_append]
    after_results; rfl
  -- a column's entry (b, 0) is the vector's entry b; there the conversion, the and, the comparisons read pointwise
  rw [e, Cert.LibBatch.shapeCast_a_a1_apply]
  rfl

/-- The float mask at (b, n): the float of the mask bit. -/
theorem win_mask (c : Dev nD) (b : Fin 1024) (n : Fin 64) :
    (V m c main_v9 : S1024x64.Idx → EReal) (ix2 b n)
      = ufloat ((m ((c : Thread nD τ).loc main_arg3) : S1024x64.Idx → BitVec 1) (ix2 b n)) := by
  -- the float mask as the operation's term: the conversion of the mask array, which reads pointwise
  have e : (V m c main_v9 : S1024x64.Idx → EReal)
      = uitofp (F := Ideal) .f32 (m ((c : Thread nD τ).loc main_arg3)) := by
    dsimp only [Gen.V, Gen.V0]
    simp only [Gen.hostOps0, Gen.hostOps0_1, Gen.hostOps0_2, List.flatten_cons, List.flatten_nil, List.append_nil,
      List.cons_append, List.nil_append]
    after_results
  rw [e]
  rfl

end Cert.KernelIdeal.Windows

end
-- ==== Proof.KernelTail.lean ====
/-
  The host operations after the region, as a function of the three partial arrays [16, 8, 128].

  Each array is summed over all its cells. If every cell of block t of an array holds g t times 2^-10, that sum is
  the spread of g: the sum over blocks, rows of cells and cells of g t times 2^-10. The result is the quotient of
  the first sum by the second floored at 1 when the second is positive, and otherwise the third sum times 0.
-/
import proofs.«417486_j44770739094063_3_alg».proof.Proof.Gen.KernelIdeal.Frame
import proofs.«417486_j44770739094063_3_alg».proof.Proof.Spec
import Idealize.ShloMosaic.Lib.ValueIdx
import Idealize.ShloMosaic.Lib.Pipeline.Value
import Idealize.ShloMosaic.PureOps.Ideal.Laws
import Mathlib.Algebra.BigOperators.Group.Finset.Defs
import Mathlib.Data.Fintype.BigOperators

noncomputable section

open scoped BigOperators

namespace Cert.KernelIdeal.Tail

open Idealize.ShloMosaic Idealize.ShloMosaic.ValueIdx Cert.KernelIdeal Cert.KernelIdeal.Gen Cert.Spec

/-- The host's sum of all cells of a partial array, from the zero word. -/
def sumAll (a : Vec Ideal S16x8x128 .f32) : Vec Ideal S_ .f32 :=
  Host.reduceAdd a (constant (F := Ideal) S_ .f32 0x00000000#32) reducesTo_S16x8x128_S_d0_1_2 h_S_

/-- The host operations after the region, composed. -/
def tailTerm (a5 a6 a7 : Vec Ideal S16x8x128 .f32) : Vec Ideal S_ .f32 :=
  select (cmpf .ogt (sumAll a6) (constant (F := Ideal) S_ .f32 0x00000000#32))
    (Host.divf (sumAll a5) (maximumf (sumAll a6) (constant (F := Ideal) S_ .f32 0x3F800000#32)))
    (mulf (sumAll a7) (constant (F := Ideal) S_ .f32 0x00000000#32))

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum of all cells of an array whose block t holds g t times 2^-10 in every cell. -/
theorem sumAll_spread (a : Vec Ideal S16x8x128 .f32) (g : Fin 16 → EReal)
    (h : ∀ (t : Fin 16) (r : Fin 8) (l : Fin 128), a (ix3 t r l) = g t * packScale) :
    sumAll a = fun _ => spread g := by
  funext j
  unfold sumAll
  simp only [Host.reduceAdd, Ideal.hostReduceAdd_def]
  rw [Ideal.hostReduceAdd_total reducesTo_S16x8x128_S_d0_1_2 (fun b => b.elim0) a _ j]
  rw [constant_apply, Ideal.ofBits_zero_f32, zero_add, sum_idx3]
  unfold spread
  exact Finset.sum_congr rfl fun t _ => Finset.sum_congr rfl fun r _ => Finset.sum_congr rfl fun l _ => h t r l

/-- The tail on three such arrays. -/
theorem tail_apply (a5 a6 a7 : Vec Ideal S16x8x128 .f32) (s k e : Fin 16 → EReal)
    (h5 : ∀ (t : Fin 16) (r : Fin 8) (l : Fin 128), a5 (ix3 t r l) = s t * packScale)
    (h6 : ∀ (t : Fin 16) (r : Fin 8) (l : Fin 128), a6 (ix3 t r l) = k t * packScale)
    (h7 : ∀ (t : Fin 16) (r : Fin 8) (l : Fin 128), a7 (ix3 t r l) = e t * packScale) :
    tailTerm a5 a6 a7 = fun _ =>
      Scalar.select (Ideal.cmp .ogt (spread k) fZero) (Ideal.div (spread s) (max (spread k) fOne)) (spread e * fZero) := by
  funext j
  unfold tailTerm
  rw [sumAll_spread a5 s h5, sumAll_spread a6 k h6, sumAll_spread a7 e h7]
  rfl

end Cert.KernelIdeal.Tail

end
-- ==== Proof.KernelRun.lean ====
/-
  The idealized kernel program's run, read back: its one result as a function of the four argument arrays.

  Grid point t works on batch rows 64 t … 64 t + 63: each input window's block at t is those rows of its array, and
  the arrays the host wrote before the region hold the clipped indices, the validity floats and the float mask.
  So point t writes, into every cell of block t of the three partial arrays, 2^-10 times: the sum over its rows of
  row value times validity; the sum of its rows' validities; the sum of its rows' entries of the first embedding.
  The sixteen blocks tile each partial array, which therefore ends as that function of its block number. The host
  operations after the region sum each partial array over all cells and form the guarded quotient.
-/
import proofs.«417486_j44770739094063_3_alg».proof.Proof.Gen.KernelIdeal.Frame
import proofs.«417486_j44770739094063_3_alg».proof.Proof.Spec
import proofs.«417486_j44770739094063_3_alg».proof.Proof.KernelBlock
import proofs.«417486_j44770739094063_3_alg».proof.Proof.KernelWindows
import proofs.«417486_j44770739094063_3_alg».proof.Proof.KernelTail
import Idealize.ShloMosaic.Lib.ValueIdx
import Idealize.ShloMosaic.Lib.Pipeline.Value
import Idealize.ShloMosaic.Lib.StableHlo.Run

noncomputable section

open scoped BigOperators

namespace Cert.KernelIdeal.RunValue

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-! ## The argument arrays and the per-row, per-block quantities -/

abbrev argA (c : Dev nD) : S1024x64x256.Idx → EReal := m ((c : Thread nD τ).loc main_arg0)
abbrev argC (c : Dev nD) : S1024x64x256.Idx → EReal := m ((c : Thread nD τ).loc main_arg1)
abbrev argI (c : Dev nD) : S1024.Idx → BitVec 32 := m ((c : Thread nD τ).loc main_arg2)
abbrev argM (c : Dev nD) : S1024x64.Idx → BitVec 1 := m ((c : Thread nD τ).loc main_arg3)

/-- The kernel's value of batch row b. -/
def rowVal (c : Dev nD) (b : Fin 1024) : EReal :=
  rowKer (fun n => cosKer (fun d => argA m c (ix3 b n d)) (fun d => argC m c (ix3 b n d)))
    (clipIdx (argI m c (ix1 b))) (fun n => ufloat (argM m c (ix2 b n)))

/-- The validity of batch row b as a float. -/
def rowValid (c : Dev nD) (b : Fin 1024) : EReal := ufloat (validBit (argI m c (ix1 b)))

/-- Block t's sum of row value times validity. -/
def blockLoss (c : Dev nD) (t : Fin 16) : EReal := ∑ p : Fin 64, rowVal m c (rowOf t p) * rowValid m c (rowOf t p)
/-- Block t's sum of validities. -/
def blockCount (c : Dev nD) (t : Fin 16) : EReal := ∑ p : Fin 64, rowValid m c (rowOf t p)
/-- Block t's sum of the first embedding's entries. -/
def blockEmb (c : Dev nD) (t : Fin 16) : EReal :=
  ∑ p : Fin 64, ∑ n : Fin 64, ∑ d : Fin 256, argA m c (ix3 (rowOf t p) n d)

/-! ## The grid -/

theorem N_eq : cfg0.N = 16 := by decide

/-- A grid point as a block number. -/
def blockOf (t : Fin cfg0.N) : Fin 16 := ⟨t.val, by have := t.isLt; have := N_eq; omega⟩

/-- Every window's block index at point t is t on the batch axis and 0 on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-! ## The input blocks at a point are rows 64 t … 64 t + 63 of their arrays -/

/-- The five input blocks at point t, at their literal types. -/
abbrev xb0 (c : Dev nD) (t : Fin cfg0.N) : Vec Ideal S64x64x256 .f32 := iblk m c 0 t
abbrev xb1 (c : Dev nD) (t : Fin cfg0.N) : Vec Ideal S64x64x256 .f32 := iblk m c 1 t
abbrev xb2 (c : Dev nD) (t : Fin cfg0.N) : Vec Ideal S64x1 .i32 := iblk m c 2 t
abbrev xb3 (c : Dev nD) (t : Fin cfg0.N) : Vec Ideal S64x1 .f32 := iblk m c 3 t
abbrev xb4 (c : Dev nD) (t : Fin cfg0.N) : Vec Ideal S64x64 .f32 := iblk m c 4 t

theorem blk0 (c : Dev nD) (t : Fin cfg0.N) (p n : Fin 64) (d : Fin 256) :
    xb0 m c t (ix3 p n d) = argA m c (ix3 (rowOf (blockOf t) p) n d) := by
  show iblk m c 0 t _ = _
  refine Eq.trans ?_ (congrFun (V_main_arg0 m c) _)
  unfold iblk
  show (V m c main_arg0 : S1024x64x256.Idx → EReal) (((cfg0.win 0).blk t).view.emb (ix3 p n d)) = _
  obtain ⟨e0, e1, e2, -⟩ := idx_facts t
  refine congrArg _ (funext fun a => Fin.ext ?_)
  match a with
  | ⟨0, _⟩ => show win0_0.index t (0 : Fin 3) * 64 + 1 * p.val = t.val * 64 + p.val; omega
  | ⟨1, _⟩ => show win0_0.index t (1 : Fin 3) * 64 + 1 * n.val = n.val; omega
  | ⟨2, _⟩ => show win0_0.index t (2 : Fin 3) * 256 + 1 * d.val = d.val; omega

theorem blk1 (c : Dev nD) (t : Fin cfg0.N) (p n : Fin 64) (d : Fin 256) :
    xb1 m c t (ix3 p n d) = argC m c (ix3 (rowOf (blockOf t) p) n d) := by
  show iblk m c 1 t _ = _
  refine Eq.trans ?_ (congrFun (V_main_arg1 m c) _)
  unfold iblk
  show (V m c main_arg1 : S1024x64x256.Idx → EReal) (((cfg0.win 1).blk t).view.emb (ix3 p n d)) = _
  obtain ⟨-, -, -, e0, e1, e2, -⟩ := idx_facts t
  refine congrArg _ (funext fun a => Fin.ext ?_)
  match a with
  | ⟨0, _⟩ => show win0_1.index t (0 : Fin 3) * 64 + 1 * p.val = t.val * 64 + p.val; omega
  | ⟨1, _⟩ => show win0_1.index t (1 : Fin 3) * 64 + 1 * n.val = n.val; omega
  | ⟨2, _⟩ => show win0_1.index t (2 : Fin 3) * 256 + 1 * d.val = d.val; omega

theorem blk2 (c : Dev nD) (t : Fin cfg0.N) (p : Fin 64) :
    xb2 m c t (ix2 p (0 : Fin 1)) = clipIdx (argI m c (ix1 (rowOf (blockOf t) p))) := by
  show iblk m c 2 t _ = _
  refine Eq.trans ?_ (Windows.win_idx m c (rowOf (blockOf t) p))
  unfold iblk
  show (V m c main_v6 : S1024x1.Idx → BitVec 32) (((cfg0.win 2).blk t).view.emb (ix2 p (0 : Fin 1))) = _
  obtain ⟨-, -, -, -, -, -, e0, e1, -⟩ := idx_facts t
  refine congrArg _ (funext fun a => Fin.ext ?_)
  match a with
  | ⟨0, _⟩ => show win0_2.index t (0 : Fin 2) * 64 + 1 * p.val = t.val * 64 + p.val; omega
  | ⟨1, _⟩ => show win0_2.index t (1 : Fin 2) * 1 + 1 * 0 = 0; omega

theorem blk3 (c : Dev nD) (t : Fin cfg0.N) (p : Fin 64) :
    xb3 m c t (ix2 p (0 : Fin 1)) = rowValid m c (rowOf (blockOf t) p) := by
  show iblk m c 3 t _ = _
  refine Eq.trans ?_ (Windows.win_valid m c (rowOf (blockOf t) p))
  unfold iblk
  show (V m c main_v8 : S1024x1.Idx → EReal) (((cfg0.win 3).blk t).view.emb (ix2 p (0 : Fin 1))) = _
  obtain ⟨-, -, -, -, -, -, -, -, e0, e1, -⟩ := idx_facts t
  refine congrArg _ (funext fun a => Fin.ext ?_)
  match a with
  | ⟨0, _⟩ => show win0_3.index t (0 : Fin 2) * 64 + 1 * p.val = t.val * 64 + p.val; omega
  | ⟨1, _⟩ => show win0_3.index t (1 : Fin 2) * 1 + 1 * 0 = 0; omega

theorem blk4 (c : Dev nD) (t : Fin cfg0.N) (p n : Fin 64) :
    xb4 m c t (ix2 p n) = ufloat (argM m c (ix2 (rowOf (blockOf t) p) n)) := by
  show iblk m c 4 t _ = _
  refine Eq.trans ?_ (Windows.win_mask m c (rowOf (blockOf t) p) n)
  unfold iblk
  show (V m c main_v9 : S1024x64.Idx → EReal) (((cfg0.win 4).blk t).view.emb (ix2 p n)) = _
  obtain ⟨-, -, -, -, -, -, -, -, -, -, e0, e1, -⟩ := idx_facts t
  refine congrArg _ (funext fun a => Fin.ext ?_)
  match a with
  | ⟨0, _⟩ => show win0_4.index t (0 : Fin 2) * 64 + 1 * p.val = t.val * 64 + p.val; omega
  | ⟨1, _⟩ => show win0_4.index t (1 : Fin 2) * 64 + 1 * n.val = n.val; omega

/-! ## What point t leaves in its three output blocks, from the argument arrays -/

/-- Row p of point t has the row value of batch row 64 t + p. -/
theorem blockRow_eq (c : Dev nD) (t : Fin cfg0.N) (p : Fin 64) :
    BlockValue.blockRow (xb0 m c t) (xb1 m c t) (xb2 m c t) (xb4 m c t) p
      = rowVal m c (rowOf (blockOf t) p) := by
  unfold BlockValue.blockRow rowVal
  simp only [blk0, blk1, blk2, blk4]

/-! ## The three partial arrays after the run -/

/-- The first partial array: every cell of block t holds block t's weighted loss sum times 2^-10. -/
def partLoss (c : Dev nD) : S16x8x128.Idx → EReal := fun i => blockLoss m c ⟨(i 0).val, (i 0).isLt⟩ * packScale
/-- The second: block t's count of valid rows times 2^-10. -/
def partCount (c : Dev nD) : S16x8x128.Idx → EReal := fun i => blockCount m c ⟨(i 0).val, (i 0).isLt⟩ * packScale
/-- The third: block t's sum of the first embedding times 2^-10. -/
def partEmb (c : Dev nD) : S16x8x128.Idx → EReal := fun i => blockEmb m c ⟨(i 0).val, (i 0).isLt⟩ * packScale

/-- What point t writes back through output window 5 is block t of `partLoss`. -/
theorem flushed5_eq (c : Dev nD) (t : Fin cfg0.N) :
    (dats m 0 c).flushed 5 t = ((cfg0.win 5).blk t).view.read (Elt Ideal) (partLoss m c) := by
  show (cfg0.win 5).cut (grid0.coords t) ((dats m 0 c).after 5 t) = _
  rw [after0_5]
  funext j
  obtain ⟨u, r, l, rfl⟩ : ∃ (u : Fin 1) (r : Fin 8) (l : Fin 128), j = ix3 u r l := ⟨j 0, j 1, j 2, eq_ix3 j⟩
  refine (BlockValue.out0_5_apply (xb0 m c t) (xb1 m c t) (xb2 m c t) (xb3 m c t) (xb4 m c t) u r l).trans ?_
  have hsum : (∑ p : Fin 64, BlockValue.blockRow (xb0 m c t) (xb1 m c t) (xb2 m c t) (xb4 m c t) p * xb3 m c t (ix2 p (0 : Fin 1))) = blockLoss m c (blockOf t) := by
    unfold blockLoss
    exact Finset.sum_congr rfl fun p _ => by rw [blockRow_eq, blk3]
  rw [hsum]
  show blockLoss m c (blockOf t) * packScale = partLoss m c (((cfg0.win 5).blk t).view.emb (ix3 u r l))
  unfold partLoss
  refine congrArg (· * packScale) (congrArg (blockLoss m c) (Fin.ext ?_))
  obtain ⟨-, -, -, -, -, -, -, -, -, -, -, -, e0, -⟩ := idx_facts t
  show t.val = win0_5.index t (0 : Fin 3) * 1 + 1 * u.val
  have hu : u.val = 0 := by omega
  omega

/-- An index of the partial array is in point t's block of window 5 iff each coordinate is in the block's range. -/
theorem mem_blk5 (t : Fin cfg0.N) (i : S16x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_v10_0).slice (win0_5.rect t)).set ↔ _
  rw [View.set_slice_whole, Rect.mem_set_unit]
  exact Iff.rfl

/-- The sixteen blocks of window 5 tile its array: index i lies in the block of point i 0. -/
theorem cover5 (i : S16x8x128.Idx) :
    ∃ t : Fin cfg0.N, (cfg0.win 5).flush t = true ∧ i ∈ ((cfg0.win 5).blk t).view.set := by
  have h0 : (i 0).val < 16 := (i 0).isLt
  have h1 : (i 1).val < 8 := (i 1).isLt
  have h2 : (i 2).val < 128 := (i 2).isLt
  obtain ⟨t, ht⟩ : ∃ t : Fin cfg0.N, t.val = (i 0).val := ⟨⟨(i 0).val, by rw [N_eq]; exact h0⟩, rfl⟩
  refine ⟨t, flush0_5 t, ?_⟩
  rw [mem_blk5]
  obtain ⟨-, -, -, -, -, -, -, -, -, -, -, -, e0, e1, e2, -⟩ := idx_facts t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8 ≤ (i 1).val ∧ (i 1).val < win0_5.index t (1 : Fin 3) * 8 + 8; omega
  | ⟨2, _⟩ => show win0_5.index t (2 : Fin 3) * 128 ≤ (i 2).val ∧ (i 2).val < win0_5.index t (2 : Fin 3) * 128 + 128; omega

/-- The array of window 5 after the run. -/
theorem final5 (c : Dev nD) : (dats m 0 c).arrAt 5 cfg0.N = partLoss m c :=
  (dats m 0 c).arrAt_eq_of_cover 5 (partLoss m c) (fun t _ => flushed5_eq m c t) cover5

/-- What point t writes back through output window 6 is block t of `partCount`. -/
theorem flushed6_eq (c : Dev nD) (t : Fin cfg0.N) :
    (dats m 0 c).flushed 6 t = ((cfg0.win 6).blk t).view.read (Elt Ideal) (partCount m c) := by
  show (cfg0.win 6).cut (grid0.coords t) ((dats m 0 c).after 6 t) = _
  rw [after0_6]
  funext j
  obtain ⟨u, r, l, rfl⟩ : ∃ (u : Fin 1) (r : Fin 8) (l : Fin 128), j = ix3 u r l := ⟨j 0, j 1, j 2, eq_ix3 j⟩
  refine (BlockValue.out0_6_apply (xb0 m c t) (xb1 m c t) (xb2 m c t) (xb3 m c t) (xb4 m c t) u r l).trans ?_
  have hsum : (∑ p : Fin 64, xb3 m c t (ix2 p (0 : Fin 1))) = blockCount m c (blockOf t) := by
    unfold blockCount
    exact Finset.sum_congr rfl fun p _ => blk3 m c t p
  rw [hsum]
  show blockCount m c (blockOf t) * packScale = partCount m c (((cfg0.win 6).blk t).view.emb (ix3 u r l))
  unfold partCount
  refine congrArg (· * packScale) (congrArg (blockCount m c) (Fin.ext ?_))
  obtain ⟨-, -, -, -, -, -, -, -, -, -, -, -, -, -, -, e0, -⟩ := idx_facts t
  show t.val = win0_6.index t (0 : Fin 3) * 1 + 1 * u.val
  have hu : u.val = 0 := by omega
  omega

/-- An index of the partial array is in point t's block of window 6 iff each coordinate is in the block's range. -/
theorem mem_blk6 (t : Fin cfg0.N) (i : S16x8x128.Idx) :
    i ∈ ((cfg0.win 6).blk t).view.set ↔ ∀ a : Fin 3, win0_6.index t a * S1x8x128.size a ≤ (i a).val
      ∧ (i a).val < win0_6.index t a * S1x8x128.size a + S1x8x128.size a := by
  show i ∈ ((View.whole main_v10_1).slice (win0_6.rect t)).set ↔ _
  rw [View.set_slice_whole, Rect.mem_set_unit]
  exact Iff.rfl

/-- The sixteen blocks of window 6 tile its array: index i lies in the block of point i 0. -/
theorem cover6 (i : S16x8x128.Idx) :
    ∃ t : Fin cfg0.N, (cfg0.win 6).flush t = true ∧ i ∈ ((cfg0.win 6).blk t).view.set := by
  have h0 : (i 0).val < 16 := (i 0).isLt
  have h1 : (i 1).val < 8 := (i 1).isLt
  have h2 : (i 2).val < 128 := (i 2).isLt
  obtain ⟨t, ht⟩ : ∃ t : Fin cfg0.N, t.val = (i 0).val := ⟨⟨(i 0).val, by rw [N_eq]; exact h0⟩, rfl⟩
  refine ⟨t, flush0_6 t, ?_⟩
  rw [mem_blk6]
  obtain ⟨-, -, -, -, -, -, -, -, -, -, -, -, -, -, -, e0, e1, e2, -⟩ := idx_facts t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8 ≤ (i 1).val ∧ (i 1).val < win0_6.index t (1 : Fin 3) * 8 + 8; omega
  | ⟨2, _⟩ => show win0_6.index t (2 : Fin 3) * 128 ≤ (i 2).val ∧ (i 2).val < win0_6.index t (2 : Fin 3) * 128 + 128; omega

/-- The array of window 6 after the run. -/
theorem final6 (c : Dev nD) : (dats m 0 c).arrAt 6 cfg0.N = partCount m c :=
  (dats m 0 c).arrAt_eq_of_cover 6 (partCount m c) (fun t _ => flushed6_eq m c t) cover6

/-- What point t writes back through output window 7 is block t of `partEmb`. -/
theorem flushed7_eq (c : Dev nD) (t : Fin cfg0.N) :
    (dats m 0 c).flushed 7 t = ((cfg0.win 7).blk t).view.read (Elt Ideal) (partEmb m c) := by
  show (cfg0.win 7).cut (grid0.coords t) ((dats m 0 c).after 7 t) = _
  rw [after0_7]
  funext j
  obtain ⟨u, r, l, rfl⟩ : ∃ (u : Fin 1) (r : Fin 8) (l : Fin 128), j = ix3 u r l := ⟨j 0, j 1, j 2, eq_ix3 j⟩
  refine (BlockValue.out0_7_apply (xb0 m c t) (xb1 m c t) (xb2 m c t) (xb3 m c t) (xb4 m c t) u r l).trans ?_
  have hsum : (∑ p : Fin 64, ∑ n : Fin 64, ∑ d : Fin 256, xb0 m c t (ix3 p n d)) = blockEmb m c (blockOf t) := by
    unfold blockEmb
    exact Finset.sum_congr rfl fun p _ => Finset.sum_congr rfl fun n _ => Finset.sum_congr rfl fun d _ => blk0 m c t p n d
  rw [hsum]
  show blockEmb m c (blockOf t) * packScale = partEmb m c (((cfg0.win 7).blk t).view.emb (ix3 u r l))
  unfold partEmb
  refine congrArg (· * packScale) (congrArg (blockEmb m c) (Fin.ext ?_))
  obtain ⟨-, -, -, -, -, -, -, -, -, -, -, -, -, -, -, -, -, -, e0, -⟩ := idx_facts t
  show t.val = win0_7.index t (0 : Fin 3) * 1 + 1 * u.val
  have hu : u.val = 0 := by omega
  omega

/-- An index of the partial array is in point t's block of window 7 iff each coordinate is in the block's range. -/
theorem mem_blk7 (t : Fin cfg0.N) (i : S16x8x128.Idx) :
    i ∈ ((cfg0.win 7).blk t).view.set ↔ ∀ a : Fin 3, win0_7.index t a * S1x8x128.size a ≤ (i a).val
      ∧ (i a).val < win0_7.index t a * S1x8x128.size a + S1x8x128.size a := by
  show i ∈ ((View.whole main_v10_2).slice (win0_7.rect t)).set ↔ _
  rw [View.set_slice_whole, Rect.mem_set_unit]
  exact Iff.rfl

/-- The sixteen blocks of window 7 tile its array: index i lies in the block of point i 0. -/
theorem cover7 (i : S16x8x128.Idx) :
    ∃ t : Fin cfg0.N, (cfg0.win 7).flush t = true ∧ i ∈ ((cfg0.win 7).blk t).view.set := by
  have h0 : (i 0).val < 16 := (i 0).isLt
  have h1 : (i 1).val < 8 := (i 1).isLt
  have h2 : (i 2).val < 128 := (i 2).isLt
  obtain ⟨t, ht⟩ : ∃ t : Fin cfg0.N, t.val = (i 0).val := ⟨⟨(i 0).val, by rw [N_eq]; exact h0⟩, rfl⟩
  refine ⟨t, flush0_7 t, ?_⟩
  rw [mem_blk7]
  obtain ⟨-, -, -, -, -, -, -, -, -, -, -, -, -, -, -, -, -, -, e0, e1, e2⟩ := idx_facts t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 8 ≤ (i 1).val ∧ (i 1).val < win0_7.index t (1 : Fin 3) * 8 + 8; omega
  | ⟨2, _⟩ => show win0_7.index t (2 : Fin 3) * 128 ≤ (i 2).val ∧ (i 2).val < win0_7.index t (2 : Fin 3) * 128 + 128; omega

/-- The array of window 7 after the run. -/
theorem final7 (c : Dev nD) : (dats m 0 c).arrAt 7 cfg0.N = partEmb m c :=
  (dats m 0 c).arrAt_eq_of_cover 7 (partEmb m c) (fun t _ => flushed7_eq m c t) cover7

/-! ## The host operations after the region -/

/-- The result buffer after the run: the tail's term of the three partial arrays as the run leaves them. -/
theorem tail_eq (c : Dev nD) :
    (Pipeline.afterTail₀ cfgs (dats m) 0 (V0 m) [hostOps1, hostOps1_1] c main_v18 : S_.Idx → EReal)
      = Tail.tailTerm ((dats m 0 c).arrAt 5 cfg0.N) ((dats m 0 c).arrAt 6 cfg0.N) ((dats m 0 c).arrAt 7 cfg0.N) := by
  unfold Pipeline.afterTail₀
  have h5 : Pipeline.withArrays spec0 c (V0 m c) (fun w => (dats m 0 c).arrAt w cfg0.N) (Proc.devRef .tc main_v10_0)
      = (dats m 0 c).arrAt 5 cfg0.N := Pipeline.withArrays_arr spec0 launch0.win.arr_inj c _ _ 5
  have h6 : Pipeline.withArrays spec0 c (V0 m c) (fun w => (dats m 0 c).arrAt w cfg0.N) (Proc.devRef .tc main_v10_1)
      = (dats m 0 c).arrAt 6 cfg0.N := Pipeline.withArrays_arr spec0 launch0.win.arr_inj c _ _ 6
  have h7 : Pipeline.withArrays spec0 c (V0 m c) (fun w => (dats m 0 c).arrAt w cfg0.N) (Proc.devRef .tc main_v10_2)
      = (dats m 0 c).arrAt 7 cfg0.N := Pipeline.withArrays_arr spec0 launch0.win.arr_inj c _ _ 7
  rw [← h5, ← h6, ← h7]
  generalize Pipeline.withArrays spec0 c (V0 m c) (fun w => (dats m 0 c).arrAt w cfg0.N) = W
  simp only [hostOps1, hostOps1_1, List.flatten_cons, List.flatten_nil, List.append_nil, List.cons_append, List.nil_append]
  after_results
  rfl

/-- The result buffer after the run is the kernel's result function of the four argument arrays. -/
theorem result_value (c : Dev nD) :
    (Pipeline.afterTail₀ cfgs (dats m) 0 (V0 m) [hostOps1, hostOps1_1] c main_v18 : S_.Idx → EReal)
      = fun _ => resultKer (argA m c) (argC m c) (argI m c) (argM m c) := by
  rw [tail_eq, final5, final6, final7,
    Tail.tail_apply (partLoss m c) (partCount m c) (partEmb m c) (blockLoss m c) (blockCount m c) (blockEmb m c)
      (fun _ _ _ => rfl) (fun _ _ _ => rfl) (fun _ _ _ => rfl)]
  rfl

/-! ## The run, read -/

/-- Every weakly fair execution of the idealized kernel program terminates with its result at the kernel's result
    function of the argument arrays and the argument arrays unchanged. -/
theorem run : θ_run defs (onTc (τ := τ) (main (F := Ideal))) ⟨m, fun _ => 0, ρ⟩ fun r => ∀ c : Dev nD,
      r.2.mem ((c.tc : Thread nD τ).loc main_v18) = (fun _ => resultKer (argA m c) (argC m c) (argI m c) (argM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (result_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.RefRow.lean ====
/-
  The reference program, one batch row at a time, on the extended reals.

  Entry (b, n) of the cosine array is the dot product of the two rows over the product of their floored norms. The
  clipped index of row b is its index word clipped into [0, 63], and the row is valid when the word itself lies in
  [0, 64). Picking the cosine at the clipped index goes through a gather whose out-of-range fill is never taken,
  because a clipped index is in range. The row's value is the weighted sum of relu(picked cosine + 1) and the mean
  of 1 - cosine over the agents that are masked in and are not the target, counted as 32-bit integers.
-/
import proofs.«417486_j44770739094063_3_alg».proof.Proof.RefRead
import proofs.«417486_j44770739094063_3_alg».proof.Proof.Spec
import proofs.«417486_j44770739094063_3_alg».proof.Proof.LibBatch
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Data.Finset.Fold
import Mathlib.Data.Finset.BooleanAlgebra
import Mathlib.Algebra.BigOperators.Group.Finset.Basic

noncomputable section

open scoped BigOperators

namespace Cert.ReferenceIdeal.RefValue

open Idealize.ShloMosaic Idealize.ShloMosaic.ValueIdx Cert.ReferenceIdeal Cert.ReferenceIdeal.Gen Cert.Spec

/-! ## A clipped index is in range -/

/-- A clipped index word lies in [0, 63] as a signed integer. -/
private theorem clip_range (i : BitVec 32) : 0 ≤ (clipIdx i).toInt ∧ (clipIdx i).toInt ≤ 63 := by
  unfold clipIdx IntOp.minsi IntOp.maxsi
  by_cases h1 : i.slt 0#32 = true
  · rw [if_pos h1]; decide
  · rw [if_neg h1]
    by_cases h2 : (63#32).slt i = true
    · rw [if_pos h2]; decide
    · rw [if_neg h2]
      simp only [BitVec.slt, decide_eq_true_eq, not_lt] at h1 h2
      have e63 : (63#32).toInt = 63 := by decide
      have e0 : (0#32).toInt = 0 := by decide
      omega

/-- A clipped index is not negative: the test "below zero" is the bit 0. -/
private theorem clip_not_neg (i : BitVec 32) : IntOp.cmpi .slt (clipIdx i) 0#32 = 0#1 := by
  have h := (clip_range i).1
  have e0 : (0#32).toInt = 0 := by decide
  show BitVec.ofBool ((clipIdx i).slt 0#32) = 0#1
  have : (clipIdx i).slt 0#32 = false := by
    simp only [BitVec.slt, decide_eq_false_iff_not, not_lt]; omega
  rw [this]; rfl

/-- The test "at least zero" on a clipped index is the bit 1. -/
private theorem clip_ge_zero (i : BitVec 32) : IntOp.cmpi .sge (clipIdx i) 0#32 = 1#1 := by
  have h := (clip_range i).1
  have e0 : (0#32).toInt = 0 := by decide
  show BitVec.ofBool ((0#32).sle (clipIdx i)) = 1#1
  have : (0#32).sle (clipIdx i) = true := by
    simp only [BitVec.sle, decide_eq_true_eq]; omega
  rw [this]; rfl

/-- The test "at most 63" on a clipped index is the bit 1. -/
private theorem clip_le_63 (i : BitVec 32) : IntOp.cmpi .sle (clipIdx i) 63#32 = 1#1 := by
  have h := (clip_range i).2
  have e63 : (63#32).toInt = 63 := by decide
  show BitVec.ofBool ((clipIdx i).sle 63#32) = 1#1
  have : (clipIdx i).sle 63#32 = true := by
    simp only [BitVec.sle, decide_eq_true_eq]; omega
  rw [this]; rfl

/-! ## A gather along a batch axis, an "and" over a unit axis, and a row's count of words, each at an index -/

/-- The gather with a leading batch axis: result (b, u) is the operand at (b, the start index at (b, 0, 0) read signed
    and clamped into [0, 63]). -/
private theorem gather_row {α : Type} {w : Nat} (x : S1024x64.Idx → α) (idx : IVec S1024x1x1 w) (b : Fin 1024) (u : Fin 1) :
    Host.gather gather_S1024x64_S1024x1x1_S1024x1_n_1_0_0_1_2_11 x idx (ix2 b u)
      = x (ix2 b ⟨min (idx (ix3 b (0 : Fin 1) (0 : Fin 1))).toInt.toNat 63, by omega⟩) := by
  unfold Host.gather
  congr 1
  funext a
  refine Fin.ext ?_
  match a with
  | ⟨0, _⟩ =>
    show gather_S1024x64_S1024x1x1_S1024x1_n_1_0_0_1_2_11.start (ix2 b u) idx 0
        + gather_S1024x64_S1024x1x1_S1024x1_n_1_0_0_1_2_11.batchCoord (ix2 b u) 0
        + gather_S1024x64_S1024x1x1_S1024x1_n_1_0_0_1_2_11.offCoord (ix2 b u) 0 = b.val
    rw [GatherDims.start_batching _ _ _ _ (show (0 : Fin 2) ∈ gather_S1024x64_S1024x1x1_S1024x1_n_1_0_0_1_2_11.operandBatchingDims from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S1024x64_S1024x1x1_S1024x1_n_1_0_0_1_2_11.operandBatchingDims from List.mem_singleton.mpr rfl)]
    rfl
  | ⟨1, _⟩ =>
    show gather_S1024x64_S1024x1x1_S1024x1_n_1_0_0_1_2_11.start (ix2 b u) idx 1
        + gather_S1024x64_S1024x1x1_S1024x1_n_1_0_0_1_2_11.batchCoord (ix2 b u) 1
        + gather_S1024x64_S1024x1x1_S1024x1_n_1_0_0_1_2_11.offCoord (ix2 b u) 1 = _
    rw [GatherDims.batchCoord_eq_zero _ _ _ (show (1 : Fin 2) ∉ gather_S1024x64_S1024x1x1_S1024x1_n_1_0_0_1_2_11.operandBatchingDims from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x64_S1024x1x1_S1024x1_n_1_0_0_1_2_11.startIndexMap from List.mem_singleton.mpr rfl)]
    have hsi : gather_S1024x64_S1024x1x1_S1024x1_n_1_0_0_1_2_11.siIdx (ix2 b u)
        ⟨List.idxOf (1 : Fin 2) gather_S1024x64_S1024x1x1_S1024x1_n_1_0_0_1_2_11.startIndexMap,
          List.idxOf_lt_length_iff.2 (List.mem_singleton.mpr rfl)⟩ = ix3 b (0 : Fin 1) (0 : Fin 1) := by
      funext c; refine Fin.ext ?_
      match c with
      | ⟨0, _⟩ => rfl
      | ⟨1, _⟩ => have := u.isLt; show u.val = 0; omega
      | ⟨2, _⟩ => rfl
    rw [hsi]
    rfl

/-- The same, with the start index given by an equation. -/
private theorem gather_row_of_eq {α : Type} {w : Nat} (x : S1024x64.Idx → α) (idx : IVec S1024x1x1 w) (b : Fin 1024) (u : Fin 1)
    (j : BitVec w) (hj : idx (ix3 b (0 : Fin 1) (0 : Fin 1)) = j) :
    Host.gather gather_S1024x64_S1024x1x1_S1024x1_n_1_0_0_1_2_11 x idx (ix2 b u)
      = x (ix2 b ⟨min j.toInt.toNat 63, by omega⟩) := by
  subst hj
  exact gather_row x idx b u

/-- An "and" over an axis of extent one reads the one element and the initial bit. -/
private theorem reduce_and_unit (x : S1024x1x1.Idx → BitVec 1) (init : S_.Idx → BitVec 1) (b : Fin 1024) (u : Fin 1) :
    Host.reduce IntOp.andi x init reducesTo_S1024x1x1_S1024x1_d2 h_S_ (ix2 b u)
      = IntOp.andi (x (ix3 b u (0 : Fin 1))) (init (Shape.Idx.first h_S_)) := by
  rw [Host.reduce_eq_fold_single IntOp.andi x init reducesTo_S1024x1x1_S1024x1_d2 (by decide) h_S_]
  show (Finset.univ : Finset (Fin 1)).fold IntOp.andi (init (Shape.Idx.first h_S_)) (x ∘ _) = _
  rw [Finset.univ_unique, Finset.fold_singleton]
  refine congrArg (fun z => IntOp.andi (x z) _) (funext fun e => Fin.ext ?_)
  match e with
  | ⟨0, _⟩ => rfl
  | ⟨1, _⟩ => rfl
  | ⟨2, _⟩ => rfl

/-- The sum of 32-bit words along row b, from the initial word. -/
private theorem reduce_count (x : S1024x64.Idx → BitVec 32) (init : S_.Idx → BitVec 32) (b : Fin 1024) :
    Host.reduce IntOp.addi x init reducesTo_S1024x64_S1024_d1 h_S_ (ix1 b)
      = (Finset.univ : Finset (Fin 64)).fold IntOp.addi (init (Shape.Idx.first h_S_)) (fun k => x (ix2 b k)) :=
  Cert.LibBatch.hostReduceAddi_last2 x init reducesTo_S1024x64_S1024_d1 (by decide) h_S_ b

/-! ## The cosines -/

private theorem idx_v1 (b : Fin 1024) (n : Fin 64) (k : Fin 256) : ReadP.idx_main_v1 (ix2 b n) k = ix3 b n k :=
  funext fun a => Fin.ext (by match a with | ⟨0, _⟩ => rfl | ⟨1, _⟩ => rfl | ⟨2, _⟩ => rfl)
private theorem idx_v3 (b : Fin 1024) (n : Fin 64) (k : Fin 256) : ReadP.idx_main_v3 (ix2 b n) k = ix3 b n k :=
  funext fun a => Fin.ext (by match a with | ⟨0, _⟩ => rfl | ⟨1, _⟩ => rfl | ⟨2, _⟩ => rfl)
private theorem idx_v6 (b : Fin 1024) (n : Fin 64) (k : Fin 256) : ReadP.idx_main_v6 (ix2 b n) k = ix3 b n k :=
  funext fun a => Fin.ext (by match a with | ⟨0, _⟩ => rfl | ⟨1, _⟩ => rfl | ⟨2, _⟩ => rfl)

/-- Entry (b, n) of the reference's cosine array. -/
theorem ref_cos (x0 x1 : (⟨S1024x64x256, .f32⟩ : BufTy).Contents (Elt Ideal)) (b : Fin 1024) (n : Fin 64) :
    ReadP.val_main_v13 (F := Ideal) x0 x1 (ix2 b n)
      = cosRef (fun d => x0 (ix3 b n d)) (fun d => x1 (ix3 b n d)) := by
  rw [ReadP.val_main_v13_apply, ReadP.val_main_v12_apply, ReadP.val_main_v9_apply, ReadP.val_main_v11_apply,
    ReadP.val_main_v4_apply, ReadP.val_main_v7_apply, ReadP.val_main_v8_apply, ReadP.val_main_v10_apply,
    ReadP.val_main_cst_2_apply, ReadP.val_main_cst_3_apply,
    ReadP.val_main_v1_apply, ReadP.val_main_v3_apply, ReadP.val_main_v6_apply,
    ReadP.val_main_cst_apply, ReadP.val_main_cst_0_apply, ReadP.val_main_cst_1_apply]
  simp only [ReadP.val_main_v0_apply, ReadP.val_main_v2_apply, ReadP.val_main_v5_apply, idx_v1, idx_v3, idx_v6,
    Ideal.hostDivf_def, Ideal.mulf_def, Ideal.maximumf_def, Ideal.hostUnary_sqrt_def, Ideal.ofBits_def,
    Ideal.ofBits_zero_f32, zero_add]
  rfl

/-! ## The index words -/

/-- The clipped index of row b. -/
theorem ref_clip (x2 : (⟨S1024, .i32⟩ : BufTy).Contents (Elt Ideal)) (b : Fin 1024) :
    ReadP.val_main_v19 (F := Ideal) x2 (ix1 b) = clipIdx (x2 (ix1 b)) := by
  rw [ReadP.val_main_v19_apply, ReadP.val_main_call0_v4_apply, ReadP.val_main_call0_v3_apply, ReadP.val_main_c_6_apply,
    ReadP.val_main_call0_v2_apply, ReadP.val_main_call0_v1_apply, ReadP.val_main_call0_v0_apply, ReadP.val_main_c_5_apply]
  rfl

/-- Whether row b's index names an agent. -/
theorem ref_valid (x2 : (⟨S1024, .i32⟩ : BufTy).Contents (Elt Ideal)) (b : Fin 1024) :
    ReadP.val_main_v18 (F := Ideal) x2 (ix1 b) = validBit (x2 (ix1 b)) := by
  rw [ReadP.val_main_v18_apply, ReadP.val_main_v15_apply, ReadP.val_main_v14_apply, ReadP.val_main_c_apply,
    ReadP.val_main_v17_apply, ReadP.val_main_v16_apply, ReadP.val_main_c_4_apply]
  rfl

/-! ## The picked cosine -/

private theorem idx_v20 (b : Fin 1024) (u : Fin 1) : ReadP.idx_main_v20 (ix2 b u) = ix1 b :=
  funext fun a => Fin.ext (by match a with | ⟨0, _⟩ => rfl)

/-- The clipped index of row b, read in its column form. -/
private theorem read_v20 (x2 : (⟨S1024, .i32⟩ : BufTy).Contents (Elt Ideal)) (b : Fin 1024) (u : Fin 1) :
    ReadP.val_main_v20 (F := Ideal) x2 (ix2 b u) = clipIdx (x2 (ix1 b)) := by
  rw [ReadP.val_main_v20_apply, idx_v20, ref_clip]

/-- A clipped index is not negative, so the wrap-around of negative indices keeps it. -/
private theorem read_call1_v4 (x2 : (⟨S1024, .i32⟩ : BufTy).Contents (Elt Ideal)) (b : Fin 1024) (u : Fin 1) :
    ReadP.val_main_call1_v4 (F := Ideal) x2 (ix2 b u) = clipIdx (x2 (ix1 b)) := by
  rw [ReadP.val_main_call1_v4_apply, ReadP.val_main_call1_v1_apply, ReadP.val_main_call1_v0_apply,
    ReadP.val_main_call1_c_apply, read_v20, clip_not_neg, select_zero]

private theorem idx_call1_v5 (b : Fin 1024) :
    ReadP.idx_main_call1_v5 (ix3 b (0 : Fin 1) (0 : Fin 1)) = ix2 b (0 : Fin 1) :=
  funext fun a => Fin.ext (by
    match a with
    | ⟨0, _⟩ => show ((b.val * 1 + 0) * 1 + 0) / 1 = b.val; omega
    | ⟨1, _⟩ => rfl)

/-- The start index the gather reads for row b is the clipped index. -/
private theorem read_call1_v5 (x2 : (⟨S1024, .i32⟩ : BufTy).Contents (Elt Ideal)) (b : Fin 1024) :
    ReadP.val_main_call1_v5 (F := Ideal) x2 (ix3 b (0 : Fin 1) (0 : Fin 1)) = clipIdx (x2 (ix1 b)) := by
  rw [ReadP.val_main_call1_v5_apply, idx_call1_v5, read_call1_v4]

/-- A clipped index is in range, so the gather's in-range bit is 1. -/
private theorem read_call1_v12 (x2 : (⟨S1024, .i32⟩ : BufTy).Contents (Elt Ideal)) (b : Fin 1024) :
    ReadP.val_main_call1_v12 (F := Ideal) x2 (ix2 b (0 : Fin 1)) = 1#1 := by
  unfold ReadP.val_main_call1_v12
  rw [reduce_and_unit, ReadP.val_main_call1_v11_apply, ReadP.val_main_call1_v7_apply, ReadP.val_main_call1_v10_apply,
    ReadP.val_main_call1_v6_apply, ReadP.val_main_call1_c_2_apply, ReadP.val_main_call1_v9_apply,
    ReadP.val_main_call1_v8_apply, ReadP.val_main_call1_c_1_apply, ReadP.val_main_call1_c_3_apply, read_call1_v5,
    clip_ge_zero, clip_le_63]
  rfl

private theorem idx_v22 (b : Fin 1024) : ReadP.idx_main_v22 (ix1 b) = ix2 b (0 : Fin 1) :=
  funext fun a => Fin.ext (by
    match a with
    | ⟨0, _⟩ => show b.val / 1 = b.val; omega
    | ⟨1, _⟩ => rfl)

/-- The cosine picked for row b: the cosine at the column its clipped index names. -/
private theorem read_v22 (x0 x1 : (⟨S1024x64x256, .f32⟩ : BufTy).Contents (Elt Ideal))
    (x2 : (⟨S1024, .i32⟩ : BufTy).Contents (Elt Ideal)) (b : Fin 1024) :
    ReadP.val_main_v22 (F := Ideal) x0 x1 x2 (ix1 b)
      = cosRef (fun d => x0 (ix3 b (pick (clipIdx (x2 (ix1 b)))) d)) (fun d => x1 (ix3 b (pick (clipIdx (x2 (ix1 b)))) d)) := by
  rw [ReadP.val_main_v22_apply, idx_v22, ReadP.val_main_v21_apply, read_call1_v12, select_one]
  unfold ReadP.val_main_call1_v13
  rw [gather_row_of_eq _ _ b (0 : Fin 1) _ (read_call1_v5 x2 b), ref_cos]
  rfl

/-! ## The other agents -/

private theorem idx_v30 (b : Fin 1024) (n : Fin 64) : ReadP.idx_main_v28 (ReadP.idx_main_v30 (ix2 b n)) = ix1 b :=
  funext fun a => Fin.ext (by match a with | ⟨0, _⟩ => rfl)

/-- The bit "agent n of row b is masked in and is not the target". -/
private theorem other_bit (x2 : (⟨S1024, .i32⟩ : BufTy).Contents (Elt Ideal))
    (x3 : (⟨S1024x64, .i1⟩ : BufTy).Contents (Elt Ideal)) (b : Fin 1024) (n : Fin 64) :
    ReadP.val_main_v32 (F := Ideal) x2 x3 (ix2 b n)
      = otherBit (fun n => x3 (ix2 b n)) (clipIdx (x2 (ix1 b))) n := by
  rw [ReadP.val_main_v32_apply, ReadP.val_main_v31_apply, ReadP.val_main_v29_apply, ReadP.val_main_v27_apply,
    ReadP.val_main_v26_apply, ReadP.val_main_v30_apply, ReadP.val_main_v28_apply, idx_v30, ref_clip]
  rfl

/-- The count of the other agents of row b, as a 32-bit word. -/
private theorem read_v34 (x2 : (⟨S1024, .i32⟩ : BufTy).Contents (Elt Ideal))
    (x3 : (⟨S1024x64, .i1⟩ : BufTy).Contents (Elt Ideal)) (b : Fin 1024) :
    ReadP.val_main_v34 (F := Ideal) x2 x3 (ix1 b)
      = (Finset.univ : Finset (Fin 64)).fold IntOp.addi 0#32
          (fun n => (otherBit (fun n => x3 (ix2 b n)) (clipIdx (x2 (ix1 b))) n).setWidth 32) := by
  unfold ReadP.val_main_v34
  rw [reduce_count, ReadP.val_main_c_8_apply]
  simp only [ReadP.val_main_v33_apply, other_bit]

private theorem idx_v38 (b : Fin 1024) (k : Fin 64) : ReadP.idx_main_v38 (ix1 b) k = ix2 b k :=
  funext fun a => Fin.ext (by match a with | ⟨0, _⟩ => rfl | ⟨1, _⟩ => rfl)

/-- The sum of 1 - cosine over the other agents of row b. -/
private theorem read_v38 (x0 x1 : (⟨S1024x64x256, .f32⟩ : BufTy).Contents (Elt Ideal))
    (x2 : (⟨S1024, .i32⟩ : BufTy).Contents (Elt Ideal)) (x3 : (⟨S1024x64, .i1⟩ : BufTy).Contents (Elt Ideal)) (b : Fin 1024) :
    ReadP.val_main_v38 (F := Ideal) x0 x1 x2 x3 (ix1 b)
      = ∑ n : Fin 64, Scalar.select (otherBit (fun n => x3 (ix2 b n)) (clipIdx (x2 (ix1 b))) n)
          (fOne - cosRef (fun d => x0 (ix3 b n d)) (fun d => x1 (ix3 b n d))) fZero := by
  rw [ReadP.val_main_v38_apply, ReadP.val_main_cst_11_apply, Ideal.ofBits_def, Ideal.ofBits_zero_f32, zero_add]
  refine Finset.sum_congr rfl fun k _ => ?_
  rw [idx_v38, ReadP.val_main_v37_apply, other_bit, ReadP.val_main_v36_apply, ReadP.val_main_v35_apply,
    ReadP.val_main_cst_9_apply, ReadP.val_main_call3_v1_apply, ReadP.val_main_call3_v0_apply,
    ReadP.val_main_cst_10_apply, ref_cos]
  rfl

/-! ## The row -/

/-- The reference's value of row b. -/
theorem ref_row (x0 x1 : (⟨S1024x64x256, .f32⟩ : BufTy).Contents (Elt Ideal)) (x2 : (⟨S1024, .i32⟩ : BufTy).Contents (Elt Ideal)) (x3 : (⟨S1024x64, .i1⟩ : BufTy).Contents (Elt Ideal)) (b : Fin 1024) :
    ReadP.val_main_v50 (F := Ideal) x0 x1 x2 x3 (ix1 b)
      = rowRef (fun n => cosRef (fun d => x0 (ix3 b n d)) (fun d => x1 (ix3 b n d)))
          (clipIdx (x2 (ix1 b))) (fun n => x3 (ix2 b n)) := by
  rw [ReadP.val_main_v50_apply, ReadP.val_main_v47_apply, ReadP.val_main_v49_apply,
    ReadP.val_main_v46_apply, ReadP.val_main_cst_15_apply, ReadP.val_main_v48_apply, ReadP.val_main_cst_16_apply,
    ReadP.val_main_v25_apply, ReadP.val_main_v24_apply, ReadP.val_main_v23_apply, ReadP.val_main_cst_7_apply,
    ReadP.val_main_call2_v0_apply, ReadP.val_main_call2_cst_apply, read_v22,
    ReadP.val_main_v45_apply, ReadP.val_main_v40_apply, ReadP.val_main_v39_apply, ReadP.val_main_c_12_apply,
    ReadP.val_main_v44_apply, ReadP.val_main_v43_apply, ReadP.val_main_v42_apply, ReadP.val_main_v41_apply,
    ReadP.val_main_c_13_apply, ReadP.val_main_call4_v1_apply, ReadP.val_main_call4_v0_apply,
    ReadP.val_main_cst_14_apply, read_v34, read_v38]
  rfl

end Cert.ReferenceIdeal.RefValue

end
-- ==== Proof.RefTail.lean ====
/-
  The reference program's result from its per-row values, on the extended reals: the sum over the valid rows of
  the row values, over the number of valid rows counted as a 32-bit integer and floored at 1, when that number is
  positive; otherwise the sum of all entries of the first embedding times 0.
-/
import proofs.«417486_j44770739094063_3_alg».proof.Proof.RefRead
import proofs.«417486_j44770739094063_3_alg».proof.Proof.Spec
import proofs.«417486_j44770739094063_3_alg».proof.Proof.LibBatch
import proofs.«417486_j44770739094063_3_alg».proof.Proof.RefRow
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Algebra.BigOperators.Group.Finset.Defs
import Mathlib.Data.Fintype.BigOperators
import Mathlib.Data.Finset.Fold
import Mathlib.Data.Finset.Filter
import Mathlib.Data.Finset.BooleanAlgebra

noncomputable section

open scoped BigOperators

namespace Cert.ReferenceIdeal.RefValue

open Idealize.ShloMosaic Idealize.ShloMosaic.ValueIdx Cert.ReferenceIdeal Cert.ReferenceIdeal.Gen Cert.Spec

/-! ## Sums and folds over the index sets of rank one and rank three, by coordinates -/

/-- A rank-1 index set is its coordinate's range … -/
private def idxEquiv1 {n : Nat} : (⟨1, ![n]⟩ : Shape).Idx ≃ Fin n where
  toFun i := i 0
  invFun p := ix1 p
  left_inv i := (eq_ix1 i).symm
  right_inv _ := rfl

/-- … so a sum over it is the sum over the coordinate … -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- … and so is a fold of any commutative and associative operation. -/
private theorem fold_idx1 {α : Type} (op : α → α → α) [Std.Commutative op] [Std.Associative op] (init : α) {n : Nat}
    (f : (⟨1, ![n]⟩ : Shape).Idx → α) :
    (Finset.univ : Finset (⟨1, ![n]⟩ : Shape).Idx).fold op init f
      = (Finset.univ : Finset (Fin n)).fold op init (fun a => f (ix1 a)) := by
  rw [← Finset.map_univ_equiv (idxEquiv1 (n := n)).symm, Finset.fold_map]
  rfl

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's sum of 32-bit words over the one axis of a vector, into a scalar: every index of the vector drops to
    the scalar's one index, so the words of the whole vector are added up from the initial word. -/
private theorem hostReduceAddi_all1 {n : Nat} {u : Shape} (x : IVec ⟨1, ![n]⟩ 32) (init : u.Idx → BitVec 32)
    (h' : (⟨1, ![n]⟩ : Shape).ReducesTo [0] ⟨0, ![]⟩) (hu : 0 < u.numel) (j : (⟨0, ![]⟩ : Shape).Idx) :
    Host.reduce IntOp.addi x init h' hu j
      = (Finset.univ : Finset (Fin n)).fold IntOp.addi (init (Shape.Idx.first hu)) (fun k => x (ix1 k)) := by
  rw [Host.reduce_eq_fold IntOp.addi x init h' hu j,
    Finset.filter_true_of_mem fun i _ => funext fun b => b.elim0, fold_idx1]

/-! ## The three quantities the result is made of -/

/-- The number of valid rows, as the reference counts it: the validity bits widened to 32 bits and added up. -/
private theorem tail_count (x2 : (⟨S1024, .i32⟩ : BufTy).Contents (Elt Ideal)) (i : S_.Idx) :
    ReadP.val_main_v54 (F := Ideal) x2 i
      = (Finset.univ : Finset (Fin 1024)).fold IntOp.addi 0#32 (fun b => (validBit (x2 (ix1 b))).setWidth 32) := by
  unfold ReadP.val_main_v54
  rw [hostReduceAddi_all1, ReadP.val_main_c_19_apply]
  refine congrArg (fun f => Finset.fold IntOp.addi 0#32 f Finset.univ) (funext fun k => ?_)
  rw [ReadP.val_main_v53_apply, ref_valid]

/-- The sum over the valid rows of the rows' values. -/
private theorem tail_total (x0 x1 : (⟨S1024x64x256, .f32⟩ : BufTy).Contents (Elt Ideal)) (x2 : (⟨S1024, .i32⟩ : BufTy).Contents (Elt Ideal)) (x3 : (⟨S1024x64, .i1⟩ : BufTy).Contents (Elt Ideal)) (i : S_.Idx) :
    ReadP.val_main_v52 (F := Ideal) x0 x1 x2 x3 i
      = ∑ b : Fin 1024, Scalar.select (validBit (x2 (ix1 b)))
          (rowRef (fun n => cosRef (fun d => x0 (ix3 b n d)) (fun d => x1 (ix3 b n d)))
            (clipIdx (x2 (ix1 b))) (fun n => x3 (ix2 b n))) fZero := by
  rw [ReadP.val_main_v52_apply, ReadP.val_main_cst_18_apply, Ideal.ofBits_def, Ideal.ofBits_zero_f32, zero_add, sum_idx1]
  refine Finset.sum_congr rfl fun b _ => ?_
  rw [ReadP.val_main_v51_apply, ref_valid, ref_row, ReadP.val_main_call5_v1_apply, ReadP.val_main_call5_v0_apply,
    ReadP.val_main_cst_17_apply, Ideal.ofBits_def]

/-- The sum of all entries of the first embedding. -/
private theorem tail_sumA (x0 : (⟨S1024x64x256, .f32⟩ : BufTy).Contents (Elt Ideal)) (i : S_.Idx) :
    ReadP.val_main_v59 (F := Ideal) x0 i = ∑ b : Fin 1024, ∑ n : Fin 64, ∑ d : Fin 256, x0 (ix3 b n d) := by
  rw [ReadP.val_main_v59_apply, ReadP.val_main_cst_22_apply, Ideal.ofBits_def, Ideal.ofBits_zero_f32, zero_add, sum_idx3]

/-! ## The result -/

/-- The reference's result is `resultRef` of the four argument arrays. -/
theorem ref_value (x0 x1 : (⟨S1024x64x256, .f32⟩ : BufTy).Contents (Elt Ideal)) (x2 : (⟨S1024, .i32⟩ : BufTy).Contents (Elt Ideal)) (x3 : (⟨S1024x64, .i1⟩ : BufTy).Contents (Elt Ideal)) :
    ReadP.val_main_v61 (F := Ideal) x0 x1 x2 x3 = fun _ => resultRef x0 x1 x2 x3 := by
  funext i
  rw [ReadP.val_main_v61_apply, ReadP.val_main_v55_apply, ReadP.val_main_v58_apply, ReadP.val_main_v60_apply,
    ReadP.val_main_v57_apply, ReadP.val_main_v56_apply, tail_count, tail_total, tail_sumA,
    ReadP.val_main_c_20_apply, ReadP.val_main_c_21_apply, ReadP.val_main_cst_23_apply,
    Ideal.hostDivf_def, Ideal.mulf_def, Ideal.ofBits_def]
  rfl

end Cert.ReferenceIdeal.RefValue

end
-- ==== Proof.lean ====
/-
  A masked cosine-similarity contrastive loss: the kernel against its jnp reference, on the extended reals.

  Inputs: two embeddings emb_mut, emb_heal [1024, 64, 256], an agent index per batch row [1024], a mask [1024, 64].
  Per entry (b, n), the cosine of the two rows. Per batch row b with clipped index j: 0.7 relu(cos[b, j] + 1) plus
  0.3 times the mean of 1 - cos[b, n] over the agents n that are masked in and differ from j (0 when there are none).
  The result is the mean of the per-row values over the rows whose index is a valid agent.

  The two programs differ in three ways, and each is an identity on finite inputs:
  * the cosine. The reference divides the dot product by max(|a|, D) max(|c|, D); the kernel multiplies it by
    rsqrt(max(|a|², E)) rsqrt(max(|c|², E)). Here D is the reference's single-precision word for 1e-8, 11258999 / 2^50,
    and E, the kernel's word for 1e-16, is NAMED as D², 126765058482001 / 2^100, whose rounding it is. Then
    max(√s, D) = √(max(s, D²)) for s ≥ 0, and both cosines are dot / (√max(|a|², D²) √max(|c|², D²)).
  * the row. The reference picks cos[b, j] by a gather (its out-of-range fill is never taken: j is clipped) and
    counts the other agents as 32-bit integers; the kernel sums cos against the indicator of j and counts in floats.
    An indicator or a mask bit as a float is 0 or 1, a count of at most 64 of them is that natural number either way.
  * the mean. The reference sums the valid rows once; the kernel sums blocks of 64 rows, writes each block's sum
    times 2^-10 into 8 × 128 cells, and sums all cells afterwards: 1024 · 2^-10 = 1. The number of valid rows, at most
    1024, is the same natural number as an integer and as a float. Both fallbacks are a product with 0.

  The kernel's run and the reference's run each end at their function of the argument arrays (`resultKer`,
  `resultRef`); `result_eq` identifies the two on arrays of real numbers, which the precondition provides.
-/
import proofs.«417486_j44770739094063_3_alg».proof.Defs
import proofs.«417486_j44770739094063_3_alg».proof.Proof.Gen.Kernel
import proofs.«417486_j44770739094063_3_alg».proof.Proof.Gen.Kernel.Skeleton
import proofs.«417486_j44770739094063_3_alg».proof.Proof.Gen.Kernel.Launch
import proofs.«417486_j44770739094063_3_alg».proof.Proof.Gen.Kernel.Points
import proofs.«417486_j44770739094063_3_alg».proof.Proof.Gen.Kernel.Frame
import proofs.«417486_j44770739094063_3_alg».proof.Proof.Gen.KernelIdeal
import proofs.«417486_j44770739094063_3_alg».proof.Proof.Gen.KernelIdeal.Skeleton
import proofs.«417486_j44770739094063_3_alg».proof.Proof.Gen.KernelIdeal.Launch
import proofs.«417486_j44770739094063_3_alg».proof.Proof.Gen.KernelIdeal.Points
import proofs.«417486_j44770739094063_3_alg».proof.Proof.Gen.KernelIdeal.Frame
import proofs.«417486_j44770739094063_3_alg».proof.Proof.Gen.ReferenceIdeal
import proofs.«417486_j44770739094063_3_alg».proof.Proof.RefRun
import proofs.«417486_j44770739094063_3_alg».proof.Proof.RefRead
import proofs.«417486_j44770739094063_3_alg».proof.Proof.Gen.Pre_finite_inputs
import proofs.«417486_j44770739094063_3_alg».proof.Proof.Spec
import proofs.«417486_j44770739094063_3_alg».proof.Proof.Result
import proofs.«417486_j44770739094063_3_alg».proof.Proof.Finite
import proofs.«417486_j44770739094063_3_alg».proof.Proof.KernelRun
import proofs.«417486_j44770739094063_3_alg».proof.Proof.RefTail
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The one rewrite of the idealization, at both floors: the table gives the name the square of the reference's
    floor, and the printed constant is that value on the extended reals. -/
theorem named_floor : IdealRules.named_const.Statement Cert.KernelIdeal.κ "eps_sq" .f32 0x24E69595#32
    ((126765058482001 / 1267650600228229401496703205376 : ℝ) : EReal) :=
  IdealRules.named_const.statement Cert.KernelIdeal.κ "eps_sq" .f32 0x24E69595#32
    ((126765058482001 / 1267650600228229401496703205376 : ℝ) : EReal) rfl

theorem preserves : Cert.preserves_Kernel_KernelIdeal := ⟨named_floor, named_floor⟩

/-- From memories agreeing on finite arguments both idealized programs end at one result: the kernel's function of
    the arguments, which is the reference's on arrays of real numbers. -/
theorem algebraic : Cert.algebraic_KernelIdeal_ReferenceIdeal := by
  intro m ρ m' ρ' hpre hagree
  refine ⟨fun c => (fun _ => Cert.Spec.resultKer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))),
    Cert.KernelIdeal.RunValue.run m ρ, ?_⟩
  refine (θ_run Cert.ReferenceIdeal.defs _ _).mono (fun _ h c => ⟨?_, (h c).2⟩)
    (Cert.ReferenceIdeal.ValueP.run (F := Ideal) m' ρ')
  obtain ⟨hA, hC⟩ := Cert.Finite.real_of_pre _ _ _ _ (hpre c)
  rw [(h c).1, Cert.ReferenceIdeal.ReadP.val_main_v61_eq, Cert.ReferenceIdeal.RefValue.ref_value,
    (hagree c).1, (hagree c).2.1, (hagree c).2.2.1, (hagree c).2.2.2]
  exact funext fun _ => (Cert.Algebra.result_eq _ _ hA hC _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
